-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S16384x16384 : Shape := ⟨2, ![16384, 16384]⟩
abbrev S4x64 : Shape := ⟨2, ![4, 64]⟩
abbrev S64 : Shape := ⟨1, ![64]⟩
abbrev S64x64 : Shape := ⟨2, ![64, 64]⟩
abbrev S68x64 : Shape := ⟨2, ![68, 64]⟩
abbrev S64x2 : Shape := ⟨2, ![64, 2]⟩
abbrev S2 : Shape := ⟨1, ![2]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S68x64 : S_.BroadcastsInDim S68x64 (![] : Fin 0 → Fin S68x64.rank)
  reducesTo_S68x64_S_d0_1 : S68x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x2 .f32) (main_arg11 : FVec F S2 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x2 .f32 := Host.absf main_arg10
  let main_cst_18 : FVec F S_ .f32 := constant S_ .f32 0x7F800000#32
  let main_v50 : FVec F S64x2 .f32 := broadcastInDim S64x2 ![] bcast_S_S64x2 main_cst_18
  fn_part3 (F := F) main_arg11 main_v48 main_v49 main_v50

def fn_part1 {F : FTy → Type} [FloatOps F] (main_arg4 : FVec F S64x64 .f32) (main_arg5 : FVec F S64 .f32) (main_arg6 : FVec F S68x64 .f32) (main_arg7 : FVec F S64 .f32) (main_arg8 : FVec F S64x64 .f32) (main_arg9 : FVec F S64 .f32) (main_arg10 : FVec F S64x2 .f32) (main_arg11 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S68x64 .f32 := Host.absf main_arg6
  let main_cst_10 : FVec F S_ .f32 := constant S_ .f32 0x7F800000#32
  let main_v30 : FVec F S68x64 .f32 := broadcastInDim S68x64 ![] bcast_S_S68x64 main_cst_10
  let main_v31 : IVec S68x64 1 := cmpf .olt main_v29 main_v30
  let main_c_11 : IVec S_ 1 := constantI S_ 1 1#1
  let main_v32 : IVec S_ 1 := (fun x v => Host.reduce IntOp.andi x v reducesTo_S68x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x4 .f32) (main_arg1 : FVec F S16384x16384 .f32) (main_arg2 : FVec F S4x64 .f32) (main_arg3 : FVec F S64 .f32) (main_arg4 : FVec F S64x64 .f32) (main_arg5 : FVec F S64 .f32) (main_arg6 : FVec F S68x64 .f32) (main_arg7 : FVec F S64 .f32) (main_arg8 : FVec F S64x64 .f32) (main_arg9 : FVec F S64 .f32) (main_arg10 : FVec F S64x2 .f32) (main_arg11 : FVec F S2 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S16384x4 : Shape := ⟨2, ![16384, 4]⟩
abbrev S16384x16384 : Shape := ⟨2, ![16384, 16384]⟩
abbrev S4x64 : Shape := ⟨2, ![4, 64]⟩
abbrev S64 : Shape := ⟨1, ![64]⟩
abbrev S64x64 : Shape := ⟨2, ![64, 64]⟩
abbrev S68x64 : Shape := ⟨2, ![68, 64]⟩
abbrev S64x2 : Shape := ⟨2, ![64, 2]⟩
abbrev S2 : Shape := ⟨1, ![2]⟩
abbrev S16384x64 : Shape := ⟨2, ![16384, 64]⟩
abbrev S2048x4 : Shape := ⟨2, ![2048, 4]⟩
abbrev S2048x64 : Shape := ⟨2, ![2048, 64]⟩
abbrev S1x64 : Shape := ⟨2, ![1, 64]⟩
abbrev S16384x2 : Shape := ⟨2, ![16384, 2]⟩
abbrev S2048x2048 : Shape := ⟨2, ![2048, 2048]⟩
abbrev S2048x2 : Shape := ⟨2, ![2048, 2]⟩
abbrev S1x2 : Shape := ⟨2, ![1, 2]⟩

abbrev nBuf : Space → Nat
  | .hbm => 16
  | .vmem => 24
  | .smem => 0
  | _ => 0

abbrev bufTy : (tb : Table) → Fin (tcTables nBuf tb) → BufTy
  | .hbm, ⟨0, _⟩ => ⟨S16384x4, .f32⟩
  | .hbm, ⟨1, _⟩ => ⟨S16384x16384, .f32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S68x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S4x64, .f32⟩
  | .hbm, ⟨13, _⟩ => ⟨S64x64, .f32⟩
  | .hbm, ⟨14, _⟩ => ⟨S16384x64, .bf16⟩
  | .hbm, ⟨15, _⟩ => ⟨S16384x2, .f32⟩
  | .local _ .vmem, ⟨0, _⟩ => ⟨S2048x4, .f32⟩
  | .local _ .vmem, ⟨1, _⟩ => ⟨S2048x4, .f32⟩
  | .local _ .vmem, ⟨2, _⟩ => ⟨S4x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S2048x64, .bf16⟩
  | .local _ .vmem, ⟨7, _⟩ => ⟨S2048x64, .bf16⟩
  | .local _ .vmem, ⟨8, _⟩ => ⟨S2048x2048, .f32⟩
  | .local _ .vmem, ⟨9, _⟩ => ⟨S2048x2048, .f32⟩
  | .local _ .vmem, ⟨10, _⟩ => ⟨S2048x64, .bf16⟩
  | .local _ .vmem, ⟨11, _⟩ => ⟨S2048x64, .bf16⟩
  | .local _ .vmem, ⟨12, _⟩ => ⟨S2048x4, .f32⟩
  | .local _ .vmem, ⟨13, _⟩ => ⟨S2048x4, .f32⟩
  | .local _ .vmem, ⟨14, _⟩ => ⟨S4x64, .f32⟩
  | .local _ .vmem, ⟨15, _⟩ => ⟨S64x64, .f32⟩
  | .local _ .vmem, ⟨16, _⟩ => ⟨S64, .f32⟩
  | .local _ .vmem, ⟨17, _⟩ => ⟨S64x64, .f32⟩
  | .local _ .vmem, ⟨18, _⟩ => ⟨S64, .f32⟩
  | .local _ .vmem, ⟨19, _⟩ => ⟨S64x2, .f32⟩
  | .local _ .vmem, ⟨20, _⟩ => ⟨S2, .f32⟩
  | .local _ .vmem, ⟨21, _⟩ => ⟨S2048x2, .f32⟩
  | .local _ .vmem, ⟨22, _⟩ => ⟨S2048x2, .f32⟩
  | .local _ .vmem, ⟨23, _⟩ => ⟨S2048x64, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S2048x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

class Facts₀ : Prop where
  slices_S68x64_S4x64_0_0 : S68x64.Slices ![0, 0] S4x64
  slices_S68x64_S64x64_4_0 : S68x64.Slices ![4, 0] S64x64
  inb_S2048x4_S2048x4_0_0 : ∀ a, (![0, 0] : Fin 2 → Nat) a + S2048x4.size a ≤ S2048x4.size a
  h_S2048x4 : 0 < S2048x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S4x64_S4x64 : S4x64.ShapeCasts S4x64
  shapeCasts_S64x64_S64x64 : S64x64.ShapeCasts S64x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x4_S4x64_S2048x64_1_0_0_1_n_n_wf : DotDims.WF S2048x4 S4x64 S2048x64 [1] [0] [0] [1] [] []
  dot_S2048x64_S64x64_S2048x64_1_0_0_1_n_n_wf : DotDims.WF S2048x64 S64x64 S2048x64 [1] [0] [0] [1] [] []
  dot_S2048x2048_S2048x64_S2048x64_1_0_0_1_n_n_wf : DotDims.WF S2048x2048 S2048x64 S2048x64 [1] [0] [0] [1] [] []
  dot_S2048x64_S64x2_S2048x2_1_0_0_1_n_n_wf : DotDims.WF S2048x64 S64x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S16384x4.size a
  hwx0_0 : ∀ i : grid0.Coords, EltTy.bits .f32 = 32 ∨ (Rect.block (s := S16384x4) S2048x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .bf16 = 32 ∨ (Rect.block (s := S16384x64) S2048x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .f32 = 32 ∨ (Rect.block (s := S16384x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .bf16 = 32 ∨ (Rect.block (s := S16384x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x4.size a ≤ S16384x4.size a
  hwx1_2 : ∀ i : grid1.Coords, EltTy.bits .f32 = 32 ∨ (Rect.block (s := S16384x4) S2048x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x2.size a ≤ S64x2.size a
  hwx1_8 : ∀ i : grid1.Coords, EltTy.bits .f32 = 32 ∨ (Rect.block (s := S64x2) S64x2.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S2.size a ≤ S2.size a
  hwx1_9 : ∀ i : grid1.Coords, EltTy.bits .f32 = 32 ∨ (Rect.block (s := S2) S2.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x2.size a ≤ S16384x2.size a
  hwx1_10 : ∀ i : grid1.Coords, EltTy.bits .f32 = 32 ∨ (Rect.block (s := S16384x2) S2048x2.size (cc1_transform_10 i) (hinb1_10 i)).WholeWords (EltTy.packing .f32)

variable [Facts₀]

def dot_S2048x4_S4x64_S2048x64_1_0_0_1_n_n : DotDims S2048x4 S4x64 S2048x64 where
  lhsContracting := [1]
  rhsContracting := [0]
  lhsNonContracting := [0]
  rhsNonContracting := [1]
  lhsBatch := []
  rhsBatch := []
  wf := dot_S2048x4_S4x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2048x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S64x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v3) S2048x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S16384x4 : Shape := ⟨2, ![16384, 4]⟩
abbrev S16384x16384 : Shape := ⟨2, ![16384, 16384]⟩
abbrev S4x64 : Shape := ⟨2, ![4, 64]⟩
abbrev S64 : Shape := ⟨1, ![64]⟩
abbrev S64x64 : Shape := ⟨2, ![64, 64]⟩
abbrev S68x64 : Shape := ⟨2, ![68, 64]⟩
abbrev S64x2 : Shape := ⟨2, ![64, 2]⟩
abbrev S2 : Shape := ⟨1, ![2]⟩
abbrev S16384x64 : Shape := ⟨2, ![16384, 64]⟩
abbrev S1x64 : Shape := ⟨2, ![1, 64]⟩
abbrev S16384x68 : Shape := ⟨2, ![16384, 68]⟩
abbrev S16384x2 : Shape := ⟨2, ![16384, 2]⟩
abbrev S1x2 : Shape := ⟨2, ![1, 2]⟩

abbrev nBuf : Space → Nat
  | .hbm => 37
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S16384x16384, .f32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S68x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S16384x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x68, .f32⟩
  | .hbm, ⟨23, _⟩ => ⟨S16384x64, .f32⟩
  | .hbm, ⟨24, _⟩ => ⟨S1x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S1x64, .f32⟩
  | .hbm, ⟨30, _⟩ => ⟨S16384x64, .f32⟩
  | .hbm, ⟨31, _⟩ => ⟨S16384x64, .f32⟩
  | .hbm, ⟨32, _⟩ => ⟨S16384x64, .f32⟩
  | .hbm, ⟨33, _⟩ => ⟨S16384x2, .f32⟩
  | .hbm, ⟨34, _⟩ => ⟨S1x2, .f32⟩
  | .hbm, ⟨35, _⟩ => ⟨S16384x2, .f32⟩
  | .hbm, ⟨36, _⟩ => ⟨S16384x2, .f32⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  concatenates_S16384x4_S16384x64_S16384x68_d1 : Shape.Concatenates [S16384x4, S16384x64] S16384x68 1
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S16384x4_S4x64_S16384x64_1_0_0_1_n_n_wf : DotDims.WF S16384x4 S4x64 S16384x64 [1] [0] [0] [1] [] []
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  dot_S16384x68_S68x64_S16384x64_1_0_0_1_n_n_wf : DotDims.WF S16384x68 S68x64 S16384x64 [1] [0] [0] [1] [] []
  dot_S16384x64_S64x2_S16384x2_1_0_0_1_n_n_wf : DotDims.WF S16384x64 S64x2 S16384x2 [1] [0] [0] [1] [] []

variable [Facts₀]

def dot_S16384x4_S4x64_S16384x64_1_0_0_1_n_n : DotDims S16384x4 S4x64 S16384x64 where
  lhsContracting := [1]
  rhsContracting := [0]
  lhsNonContracting := [0]
  rhsNonContracting := [1]
  lhsBatch := []
  rhsBatch := []
  wf := dot_S16384x4_S4x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x68_S68x64_S16384x64_1_0_0_1_n_n : DotDims S16384x68 S68x64 S16384x64 where
  lhsContracting := [1]
  rhsContracting := [0]
  lhsNonContracting := [0]
  rhsNonContracting := [1]
  lhsBatch := []
  rhsBatch := []
  wf := dot_S16384x68_S68x64_S16384x64_1_0_0_1_n_n_wf
def dot_S16384x64_S64x2_S16384x2_1_0_0_1_n_n : DotDims S16384x64 S64x2 S16384x2 where
  lhsContracting := [1]
  rhsContracting := [0]
  lhsNonContracting := [0]
  rhsNonContracting := [1]
  lhsBatch := []
  rhsBatch := []
  wf := dot_S16384x64_S64x2_S16384x2_1_0_0_1_n_n_wf

class Facts : Prop extends Facts₀ where

variable [Facts]
-- ==== Proof.R0.lean ====
/-
  The message network's pallas_call, one grid point at a time: eight points, point t reading rows 2048·t … 2048·t + 2047
  of the node features and the four weight arrays whole, and storing the 2048 × 64 block of messages of those rows.
  The body's run is stated on whole staging buffers: the inputs keep their contents and the output buffer ends at the
  one stored block, the body's arithmetic applied to what was loaded. Everything is stated at the contents `V` the
  buffers hold when the region is entered.
-/
import proofs.«172592_j32658931319165_1_alg».proof.Proof.Gen.KernelIdeal.Launch
import proofs.«172592_j32658931319165_1_alg».proof.Proof.Gen.KernelIdeal.Skeleton
import proofs.«172592_j32658931319165_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S2048x4 := Rect.unit (s := S2048x4) ![0, 0] S2048x4.size inb_S2048x4_S2048x4_0_0
abbrev rB0 : Rect S4x64 := Rect.unit (s := S4x64) ![0, 0] S4x64.size inb_S4x64_S4x64_0_0
abbrev rC0 : Rect S64 := Rect.unit (s := S64) ![0] S64.size inb_S64_S64_0
abbrev rD0 : Rect S64x64 := Rect.unit (s := S64x64) ![0, 0] S64x64.size inb_S64x64_S64x64_0_0
abbrev rO0 : Rect S2048x64 := Rect.unit (s := S2048x64) ![0, 0] S2048x64.size inb_S2048x64_S2048x64_0_0

/-- The output buffer after the body: its one store, the body's arithmetic of the loaded blocks. -/
def out0_5 (x0 : Vec F S2048x4 .f32) (x1 : Vec F S4x64 .f32) (x2 : Vec F S64 .f32) (x3 : Vec F S64x64 .f32) (x4 : Vec F S64 .f32) : Vec F S2048x64 .bf16 :=
  View.canon [⟨rO0, k0_pay1 (View.ld x0 rA0) (View.ld x1 rB0) (View.ld x2 rC0) (View.ld x3 rD0) (View.ld x4 rC0)⟩]

/-- The store covers the buffer. -/
theorem cover0_5 (p0 : Vec F S2048x64 .bf16) (y : S2048x64.Idx) :
    ∃ pc ∈ ([⟨rO0, p0⟩] : List (View.Piece (Elt F) S2048x64 .bf16)), y ∈ pc.1.set :=
  View.cover_of_tiled [⟨rO0, p0⟩] S2048x64.size (by rfl) y

set_option maxHeartbeats 1000000 in
/-- The body on whole staging memrefs: the inputs at contents `xW` and the output at anything run to the continuation
    with the inputs as they were and the output at `out0_5` of them. -/
theorem sound_kernel0 (c : Dev nD) (E : Set ℕ) (i : grid0.Coords)
    (arg1 : Memref sig .tc .vmem S2048x4 .f32) (harg1 : arg1.IsWhole) (arg2 : Memref sig .tc .vmem S4x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S2048x64 .bf16) (harg6 : arg6.IsWhole)
    (x0 : Vec F S2048x4 .f32) (x1 : Vec F S4x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__message_kernel i arg1 harg1 arg2 harg2 arg3 harg3 arg4 harg4 arg5 harg5 arg6 harg6) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- After the body at point `t` each input's buffer holds its block and the output's the stored block; the body keeps
    nothing between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.R1Runs.lean ====
/-
  The aggregation's pallas_call: what its grid points share. The grid is 8 × 8, point t = 8·i + k handling row block i
  of the adjacency matrix against column block k; the body resets its accumulator when k = 0 and finishes the node
  update, storing the output block, when k = 7. So a point is in one of three cases, told apart by t mod 8, and the
  output window's buffer is touched only in the last.
-/
import proofs.«172592_j32658931319165_1_alg».proof.Proof.Gen.KernelIdeal.Launch
import proofs.«172592_j32658931319165_1_alg».proof.Proof.Gen.KernelIdeal.Skeleton
import proofs.«172592_j32658931319165_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions over the grid -/

/-- "This is the first column block": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block": the node update runs and the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last column block nothing is stored into the output window and its block is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel

/-! ## The memrefs the body is called with -/

/-- One staging buffer of the output window, through which its contents are stated. -/
abbrev VO1_10 : View sig .tc .vmem S2048x2 .f32 := (Memref.whole cc1_stg10_0 : Memref sig .tc .vmem S2048x2 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x4 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x2 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x2 .f32 := win1_10.stage (cfg1.slots t 10)
abbrev hs1_10 (t : Fin cfg1.N) : (ms1_10 t).IsWhole := hstage1_10 ((cfg1.slots t 10).cast nbuf1_10)
/-- The accumulator: a whole scoped buffer of the kernel's own. -/
abbrev scM1_0 : Memref sig .tc .vmem S2048x64 .f32 := Memref.whole cc1_scratch0
abbrev VS1_0 : View sig .tc .vmem S2048x64 .f32 := scM1_0.view

/-- The core's scoped buffers that this call neither stages through nor accumulates in (the other call's staging
    buffers), each at some contents, beside a statement `S` about the accumulator. -/
def withOthers1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S)

/-- The region's invariant with the accumulator as a memref owned at some contents. -/
theorem PhiA1_eq (c : Dev nD) :
    (Pipeline.ΦA spec1 c : sProp 𝕄)
      = iprop(withOthers1 c (iprop(∃ d, owns (c : Thread nD τ) scM1_0 fullShare d)) ∗ (∃ r, prngReg c r)) := by
  unfold Pipeline.ΦA withOthers1; rw [scopedRest1_eq]; simp only [scM1_0, owns_whole]; try rfl

end Cert.KernelIdeal.Fr

end
-- ==== Proof.R1RunA.lean ====
/-
  The aggregation body run whole in one of its three cases (first column block: the accumulator is reset, then takes the block product): from whole
  staging buffers at given contents to the same buffers with the stored pieces written, the pieces found by the run.
-/
import proofs.«172592_j32658931319165_1_alg».proof.Proof.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) :
    Σ' (L10 : List (View.Piece (Elt F) S2048x2 .f32)), { LS0 : List (View.Piece (Elt F) S2048x64 .f32) //
      ∀ (xi10 : Vec F S2048x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Fr

end
-- ==== Proof.R1RunB.lean ====
/-
  The aggregation body run whole in one of its three cases (an inner column block: the accumulator takes the block product): from whole
  staging buffers at given contents to the same buffers with the stored pieces written, the pieces found by the run.
-/
import proofs.«172592_j32658931319165_1_alg».proof.Proof.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) :
    Σ' (L10 : List (View.Piece (Elt F) S2048x2 .f32)), { LS0 : List (View.Piece (Elt F) S2048x64 .f32) //
      ∀ (xi10 : Vec F S2048x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Fr

end
-- ==== Proof.R1RunC.lean ====
/-
  The aggregation body run whole in one of its three cases (last column block: the accumulator takes the block product, the node update runs on it, the output block is stored): from whole
  staging buffers at given contents to the same buffers with the stored pieces written, the pieces found by the run.
-/
import proofs.«172592_j32658931319165_1_alg».proof.Proof.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) :
    Σ' (L10 : List (View.Piece (Elt F) S2048x2 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.KernelIdeal.Fr

end
-- ==== Proof.R1.lean ====
/-
  The aggregation's pallas_call point by point. After point t = 8·i + k the accumulator holds what case A, B or C of
  the body left there — at k = 0 the reset value plus the first block product, afterwards the previous point's
  accumulator plus this point's block product — and at k = 7 the output window's buffer holds the stored block of
  results; at the other points that buffer is handed back untouched. `outsAt1` is this recursion over the points; the
  region's invariant carries the accumulator at `outsAt1`'s second component from one point to the next.
-/
import proofs.«172592_j32658931319165_1_alg».proof.Proof.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: a placeholder nothing consults. -/
def out1_A_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) : Vec F S2048x2 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)
theorem scover1_A_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (y : S2048x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S2048x64.size (by sl_kernel_rfl) y
/-- What case A leaves in the accumulator. -/
def sout1_A_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output window: a placeholder nothing consults. -/
def out1_B_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x2 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)
theorem scover1_B_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) (y : S2048x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S2048x64.size (by sl_kernel_rfl) y
/-- What case B leaves in the accumulator. -/
def sout1_B_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

theorem cover1_C_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) (y : S2048x2.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S2048x2.size (by sl_kernel_rfl) y
/-- What case C leaves in the output window's buffer. -/
def out1_C_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x2 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)
theorem scover1_C_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) (y : S2048x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S2048x64.size (by sl_kernel_rfl) y
/-- What case C leaves in the accumulator. -/
def sout1_C_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## The recursion over the points -/

/-- What the output window's buffer and the accumulator hold after the body at position `n`. -/
def outsAt1 (c : Dev nD) : (n : ℕ) → n < cfg1.N → Vec F S2048x2 .f32 × Vec F S2048x64 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 8 = 0 then
      if h1 : (n + 1) % 8 = 7 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 8 = 7 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The other call's staging buffers, each at some contents. -/
def oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem withOthers1_elim (c : Dev nD) (S : sProp 𝕄) : withOthers1 c S ⊢ iprop(oth1 c ∗ S) := by
  unfold withOthers1 oth1
  iintro ⟨H1, H2, H3, H4, H5, H6, H7, H8, HS⟩
  isplitr [HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

theorem withOthers1_intro (c : Dev nD) (S : sProp 𝕄) : iprop(oth1 c ∗ S) ⊢ withOthers1 c S := by
  unfold withOthers1 oth1
  iintro ⟨⟨H1, H2, H3, H4, H5, H6, H7, H8⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- Before the first point anything may be in the accumulator; before a later point it holds what the point before left. -/
def PhiS1 (c : Dev nD) : (n : ℕ) → n ≤ cfg1.N → sProp 𝕄
  | 0, _ => Pipeline.ΦA spec1 c
  | n + 1, hn => iprop(iprop(oth1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth1 c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(oth1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

end Cert.KernelIdeal.Fr

end
-- ==== Proof.R1Body.lean ====
/-
  The aggregation body meets its obligation at every grid point: by the point's position in its row of column blocks it
  is in one of the three cases, whose whole-body run applies once the invariant has handed over the accumulator at what
  the point before left (anything, at a row's first block, where the body resets it before reading).
-/
import proofs.«172592_j32658931319165_1_alg».proof.Proof.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t hc1) (noFlush1_10 t hc1)]
      rw [outsAt1_A V c t h0 h1]
      unfold sout1_A_0; (try dsimp only)
      by_cases hz : t.val = 0
      · rw [PhiS1_castSucc V c t, PhiS1_zero V c _ _ hz, PhiA1_eq]
        iintro ⟨⟨HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        ihave HW' := (withOthers1_elim c _) $$ HW
        icases HW' with ⟨Hoth, HS0⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS1_castSucc V c t, PhiS1_pos V c _ _ hz]
        iintro ⟨⟨⟨Hoth, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

  · by_cases h1 : t.val % 8 = 7
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t hc1], after1_10]
      rw [outsAt1_C V c t h0 h1]
      unfold out1_C_10 sout1_C_0; (try dsimp only)
      by_cases hz : t.val = 0
      · exfalso; omega
      · rw [PhiS1_castSucc V c t, PhiS1_pos V c _ _ hz]
        iintro ⟨⟨⟨Hoth, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _)

    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t hc1) (noFlush1_10 t hc1)]
      rw [outsAt1_B V c t h0 h1]
      unfold sout1_B_0; (try dsimp only)
      by_cases hz : t.val = 0
      · exfalso; omega
      · rw [PhiS1_castSucc V c t, PhiS1_pos V c _ _ hz]
        iintro ⟨⟨⟨Hoth, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hoth, HS0⟩, Hg⟩
  isplitl [Hoth HS0]
  · iapply (withOthers1_intro c _)
    isplitl [Hoth]; · iexact Hoth
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.Run.lean ====
/-
  The whole program run: two host slices of the update matrix, the message network's pallas_call, the aggregation's.
  Between two items every unscoped buffer of the core is held whole at named contents — the launch memory, then what
  the host operations write, then each pallas_call's arrays at what its write-backs leave (its inputs as entered) —, so
  that at the end every buffer is read back at the last of these: `run_all`. The frame claim is its reading at the
  twelve arguments, none of which any item writes.
-/
import proofs.«172592_j32658931319165_1_alg».proof.Proof.R0
import proofs.«172592_j32658931319165_1_alg».proof.Proof.R1Body
import proofs.«172592_j32658931319165_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two host slices. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the message network's call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the aggregation's call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host slices write their two results only. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ## No item writes an argument -/

theorem W3_main_arg0 (c : Dev nD) : W3 m ρ c (Proc.devRef .tc main_arg0) = m ((c : Thread nD τ).loc main_arg0) :=
  ((W3_arr m ρ c 2).trans (((dat1 (V2 m ρ) c).arrAt_in 2 rfl _).trans (A_eq1 (V2 m ρ) c 2))).trans <| ((W2_arr m ρ c 0).trans (((dat0 (V1 m ρ) c).arrAt_in 0 rfl _).trans (A_eq0 (V1 m ρ) c 0))).trans <| (W1_of m ρ c main_arg0 (by decide)).trans rfl
theorem V2_main_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans <| (W1_of m ρ c main_arg0 (by decide)).trans rfl
theorem V1_main_arg0 (c : Dev nD) : V1 m ρ c main_arg0 = m ((c : Thread nD τ).loc main_arg0) :=
  (W1_of m ρ c main_arg0 (by decide)).trans rfl
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans <| (W2_of_ne m ρ c main_arg1 (by decide)).trans <| (W1_of m ρ c main_arg1 (by decide)).trans rfl
theorem V2_main_arg1 (c : Dev nD) : V2 m ρ c main_arg1 = m ((c : Thread nD τ).loc main_arg1) :=
  (W2_of_ne m ρ c main_arg1 (by decide)).trans <| (W1_of m ρ c main_arg1 (by decide)).trans rfl
theorem V1_main_arg1 (c : Dev nD) : V1 m ρ c main_arg1 = m ((c : Thread nD τ).loc main_arg1) :=
  (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| ((W2_arr m ρ c 1).trans (((dat0 (V1 m ρ) c).arrAt_in 1 rfl _).trans (A_eq0 (V1 m ρ) c 1))).trans <| (W1_of m ρ c main_arg2 (by decide)).trans rfl
theorem V2_main_arg2 (c : Dev nD) : V2 m ρ c main_arg2 = m ((c : Thread nD τ).loc main_arg2) :=
  ((W2_arr m ρ c 1).trans (((dat0 (V1 m ρ) c).arrAt_in 1 rfl _).trans (A_eq0 (V1 m ρ) c 1))).trans <| (W1_of m ρ c main_arg2 (by decide)).trans rfl
theorem V1_main_arg2 (c : Dev nD) : V1 m ρ c main_arg2 = m ((c : Thread nD τ).loc main_arg2) :=
  (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| ((W2_arr m ρ c 2).trans (((dat0 (V1 m ρ) c).arrAt_in 2 rfl _).trans (A_eq0 (V1 m ρ) c 2))).trans <| (W1_of m ρ c main_arg3 (by decide)).trans rfl
theorem V2_main_arg3 (c : Dev nD) : V2 m ρ c main_arg3 = m ((c : Thread nD τ).loc main_arg3) :=
  ((W2_arr m ρ c 2).trans (((dat0 (V1 m ρ) c).arrAt_in 2 rfl _).trans (A_eq0 (V1 m ρ) c 2))).trans <| (W1_of m ρ c main_arg3 (by decide)).trans rfl
theorem V1_main_arg3 (c : Dev nD) : V1 m ρ c main_arg3 = m ((c : Thread nD τ).loc main_arg3) :=
  (W1_of m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| ((W2_arr m ρ c 3).trans (((dat0 (V1 m ρ) c).arrAt_in 3 rfl _).trans (A_eq0 (V1 m ρ) c 3))).trans <| (W1_of m ρ c main_arg4 (by decide)).trans rfl
theorem V2_main_arg4 (c : Dev nD) : V2 m ρ c main_arg4 = m ((c : Thread nD τ).loc main_arg4) :=
  ((W2_arr m ρ c 3).trans (((dat0 (V1 m ρ) c).arrAt_in 3 rfl _).trans (A_eq0 (V1 m ρ) c 3))).trans <| (W1_of m ρ c main_arg4 (by decide)).trans rfl
theorem V1_main_arg4 (c : Dev nD) : V1 m ρ c main_arg4 = m ((c : Thread nD τ).loc main_arg4) :=
  (W1_of m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| ((W2_arr m ρ c 4).trans (((dat0 (V1 m ρ) c).arrAt_in 4 rfl _).trans (A_eq0 (V1 m ρ) c 4))).trans <| (W1_of m ρ c main_arg5 (by decide)).trans rfl
theorem V2_main_arg5 (c : Dev nD) : V2 m ρ c main_arg5 = m ((c : Thread nD τ).loc main_arg5) :=
  ((W2_arr m ρ c 4).trans (((dat0 (V1 m ρ) c).arrAt_in 4 rfl _).trans (A_eq0 (V1 m ρ) c 4))).trans <| (W1_of m ρ c main_arg5 (by decide)).trans rfl
theorem V1_main_arg5 (c : Dev nD) : V1 m ρ c main_arg5 = m ((c : Thread nD τ).loc main_arg5) :=
  (W1_of m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| (W1_of m ρ c main_arg6 (by decide)).trans rfl
theorem V2_main_arg6 (c : Dev nD) : V2 m ρ c main_arg6 = m ((c : Thread nD τ).loc main_arg6) :=
  (W2_of_ne m ρ c main_arg6 (by decide)).trans <| (W1_of m ρ c main_arg6 (by decide)).trans rfl
theorem V1_main_arg6 (c : Dev nD) : V1 m ρ c main_arg6 = m ((c : Thread nD τ).loc main_arg6) :=
  (W1_of m ρ c main_arg6 (by decide)).trans rfl
theorem W3_main_arg7 (c : Dev nD) : W3 m ρ c (Proc.devRef .tc main_arg7) = m ((c : Thread nD τ).loc main_arg7) :=
  ((W3_arr m ρ c 5).trans (((dat1 (V2 m ρ) c).arrAt_in 5 rfl _).trans (A_eq1 (V2 m ρ) c 5))).trans <| (W2_of_ne m ρ c main_arg7 (by decide)).trans <| (W1_of m ρ c main_arg7 (by decide)).trans rfl
theorem V2_main_arg7 (c : Dev nD) : V2 m ρ c main_arg7 = m ((c : Thread nD τ).loc main_arg7) :=
  (W2_of_ne m ρ c main_arg7 (by decide)).trans <| (W1_of m ρ c main_arg7 (by decide)).trans rfl
theorem V1_main_arg7 (c : Dev nD) : V1 m ρ c main_arg7 = m ((c : Thread nD τ).loc main_arg7) :=
  (W1_of m ρ c main_arg7 (by decide)).trans rfl
theorem W3_main_arg8 (c : Dev nD) : W3 m ρ c (Proc.devRef .tc main_arg8) = m ((c : Thread nD τ).loc main_arg8) :=
  ((W3_arr m ρ c 6).trans (((dat1 (V2 m ρ) c).arrAt_in 6 rfl _).trans (A_eq1 (V2 m ρ) c 6))).trans <| (W2_of_ne m ρ c main_arg8 (by decide)).trans <| (W1_of m ρ c main_arg8 (by decide)).trans rfl
theorem V2_main_arg8 (c : Dev nD) : V2 m ρ c main_arg8 = m ((c : Thread nD τ).loc main_arg8) :=
  (W2_of_ne m ρ c main_arg8 (by decide)).trans <| (W1_of m ρ c main_arg8 (by decide)).trans rfl
theorem V1_main_arg8 (c : Dev nD) : V1 m ρ c main_arg8 = m ((c : Thread nD τ).loc main_arg8) :=
  (W1_of m ρ c main_arg8 (by decide)).trans rfl
theorem W3_main_arg9 (c : Dev nD) : W3 m ρ c (Proc.devRef .tc main_arg9) = m ((c : Thread nD τ).loc main_arg9) :=
  ((W3_arr m ρ c 7).trans (((dat1 (V2 m ρ) c).arrAt_in 7 rfl _).trans (A_eq1 (V2 m ρ) c 7))).trans <| (W2_of_ne m ρ c main_arg9 (by decide)).trans <| (W1_of m ρ c main_arg9 (by decide)).trans rfl
theorem V2_main_arg9 (c : Dev nD) : V2 m ρ c main_arg9 = m ((c : Thread nD τ).loc main_arg9) :=
  (W2_of_ne m ρ c main_arg9 (by decide)).trans <| (W1_of m ρ c main_arg9 (by decide)).trans rfl
theorem V1_main_arg9 (c : Dev nD) : V1 m ρ c main_arg9 = m ((c : Thread nD τ).loc main_arg9) :=
  (W1_of m ρ c main_arg9 (by decide)).trans rfl
theorem W3_main_arg10 (c : Dev nD) : W3 m ρ c (Proc.devRef .tc main_arg10) = m ((c : Thread nD τ).loc main_arg10) :=
  ((W3_arr m ρ c 8).trans (((dat1 (V2 m ρ) c).arrAt_in 8 rfl _).trans (A_eq1 (V2 m ρ) c 8))).trans <| (W2_of_ne m ρ c main_arg10 (by decide)).trans <| (W1_of m ρ c main_arg10 (by decide)).trans rfl
theorem V2_main_arg10 (c : Dev nD) : V2 m ρ c main_arg10 = m ((c : Thread nD τ).loc main_arg10) :=
  (W2_of_ne m ρ c main_arg10 (by decide)).trans <| (W1_of m ρ c main_arg10 (by decide)).trans rfl
theorem V1_main_arg10 (c : Dev nD) : V1 m ρ c main_arg10 = m ((c : Thread nD τ).loc main_arg10) :=
  (W1_of m ρ c main_arg10 (by decide)).trans rfl
theorem W3_main_arg11 (c : Dev nD) : W3 m ρ c (Proc.devRef .tc main_arg11) = m ((c : Thread nD τ).loc main_arg11) :=
  ((W3_arr m ρ c 9).trans (((dat1 (V2 m ρ) c).arrAt_in 9 rfl _).trans (A_eq1 (V2 m ρ) c 9))).trans <| (W2_of_ne m ρ c main_arg11 (by decide)).trans <| (W1_of m ρ c main_arg11 (by decide)).trans rfl
theorem V2_main_arg11 (c : Dev nD) : V2 m ρ c main_arg11 = m ((c : Thread nD τ).loc main_arg11) :=
  (W2_of_ne m ρ c main_arg11 (by decide)).trans <| (W1_of m ρ c main_arg11 (by decide)).trans rfl
theorem V1_main_arg11 (c : Dev nD) : V1 m ρ c main_arg11 = m ((c : Thread nD τ).loc main_arg11) :=
  (W1_of m ρ c main_arg11 (by decide)).trans rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two pallas_calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame claim's post: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c)⟩) (run_all m ρ)

end Cert.KernelIdeal.Fr

end
-- ==== Proof.BitsR0.lean ====
/-
  The message network's pallas_call, one grid point at a time: eight points, point t reading rows 2048·t … 2048·t + 2047
  of the node features and the four weight arrays whole, and storing the 2048 × 64 block of messages of those rows.
  The body's run is stated on whole staging buffers: the inputs keep their contents and the output buffer ends at the
  one stored block, the body's arithmetic applied to what was loaded. Everything is stated at the contents `V` the
  buffers hold when the region is entered.
-/
import proofs.«172592_j32658931319165_1_alg».proof.Proof.Gen.Kernel.Launch
import proofs.«172592_j32658931319165_1_alg».proof.Proof.Gen.Kernel.Skeleton
import proofs.«172592_j32658931319165_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S2048x4 := Rect.unit (s := S2048x4) ![0, 0] S2048x4.size inb_S2048x4_S2048x4_0_0
abbrev rB0 : Rect S4x64 := Rect.unit (s := S4x64) ![0, 0] S4x64.size inb_S4x64_S4x64_0_0
abbrev rC0 : Rect S64 := Rect.unit (s := S64) ![0] S64.size inb_S64_S64_0
abbrev rD0 : Rect S64x64 := Rect.unit (s := S64x64) ![0, 0] S64x64.size inb_S64x64_S64x64_0_0
abbrev rO0 : Rect S2048x64 := Rect.unit (s := S2048x64) ![0, 0] S2048x64.size inb_S2048x64_S2048x64_0_0

/-- The output buffer after the body: its one store, the body's arithmetic of the loaded blocks. -/
def out0_5 (x0 : Vec F S2048x4 .f32) (x1 : Vec F S4x64 .f32) (x2 : Vec F S64 .f32) (x3 : Vec F S64x64 .f32) (x4 : Vec F S64 .f32) : Vec F S2048x64 .bf16 :=
  View.canon [⟨rO0, k0_pay1 (View.ld x0 rA0) (View.ld x1 rB0) (View.ld x2 rC0) (View.ld x3 rD0) (View.ld x4 rC0)⟩]

/-- The store covers the buffer. -/
theorem cover0_5 (p0 : Vec F S2048x64 .bf16) (y : S2048x64.Idx) :
    ∃ pc ∈ ([⟨rO0, p0⟩] : List (View.Piece (Elt F) S2048x64 .bf16)), y ∈ pc.1.set :=
  View.cover_of_tiled [⟨rO0, p0⟩] S2048x64.size (by rfl) y

set_option maxHeartbeats 1000000 in
/-- The body on whole staging memrefs: the inputs at contents `xW` and the output at anything run to the continuation
    with the inputs as they were and the output at `out0_5` of them. -/
theorem sound_kernel0 (c : Dev nD) (E : Set ℕ) (i : grid0.Coords)
    (arg1 : Memref sig .tc .vmem S2048x4 .f32) (harg1 : arg1.IsWhole) (arg2 : Memref sig .tc .vmem S4x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S2048x64 .bf16) (harg6 : arg6.IsWhole)
    (x0 : Vec F S2048x4 .f32) (x1 : Vec F S4x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__message_kernel i arg1 harg1 arg2 harg2 arg3 harg3 arg4 harg4 arg5 harg5 arg6 harg6) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- After the body at point `t` each input's buffer holds its block and the output's the stored block; the body keeps
    nothing between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsR1Runs.lean ====
/-
  The aggregation's pallas_call: what its grid points share. The grid is 8 × 8, point t = 8·i + k handling row block i
  of the adjacency matrix against column block k; the body resets its accumulator when k = 0 and finishes the node
  update, storing the output block, when k = 7. So a point is in one of three cases, told apart by t mod 8, and the
  output window's buffer is touched only in the last.
-/
import proofs.«172592_j32658931319165_1_alg».proof.Proof.Gen.Kernel.Launch
import proofs.«172592_j32658931319165_1_alg».proof.Proof.Gen.Kernel.Skeleton
import proofs.«172592_j32658931319165_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions over the grid -/

/-- "This is the first column block": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block": the node update runs and the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last column block nothing is stored into the output window and its block is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel

/-! ## The memrefs the body is called with -/

/-- One staging buffer of the output window, through which its contents are stated. -/
abbrev VO1_10 : View sig .tc .vmem S2048x2 .f32 := (Memref.whole cc1_stg10_0 : Memref sig .tc .vmem S2048x2 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x4 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x2 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x2 .f32 := win1_10.stage (cfg1.slots t 10)
abbrev hs1_10 (t : Fin cfg1.N) : (ms1_10 t).IsWhole := hstage1_10 ((cfg1.slots t 10).cast nbuf1_10)
/-- The accumulator: a whole scoped buffer of the kernel's own. -/
abbrev scM1_0 : Memref sig .tc .vmem S2048x64 .f32 := Memref.whole cc1_scratch0
abbrev VS1_0 : View sig .tc .vmem S2048x64 .f32 := scM1_0.view

/-- The core's scoped buffers that this call neither stages through nor accumulates in (the other call's staging
    buffers), each at some contents, beside a statement `S` about the accumulator. -/
def withOthers1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S)

/-- The region's invariant with the accumulator as a memref owned at some contents. -/
theorem PhiA1_eq (c : Dev nD) :
    (Pipeline.ΦA spec1 c : sProp 𝕄)
      = iprop(withOthers1 c (iprop(∃ d, owns (c : Thread nD τ) scM1_0 fullShare d)) ∗ (∃ r, prngReg c r)) := by
  unfold Pipeline.ΦA withOthers1; rw [scopedRest1_eq]; simp only [scM1_0, owns_whole]; try rfl

end Cert.Kernel.Fr

end
-- ==== Proof.BitsR1RunA.lean ====
/-
  The aggregation body run whole in one of its three cases (first column block: the accumulator is reset, then takes the block product): from whole
  staging buffers at given contents to the same buffers with the stored pieces written, the pieces found by the run.
-/
import proofs.«172592_j32658931319165_1_alg».proof.Proof.BitsR1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) :
    Σ' (L10 : List (View.Piece (Elt F) S2048x2 .f32)), { LS0 : List (View.Piece (Elt F) S2048x64 .f32) //
      ∀ (xi10 : Vec F S2048x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Fr

end
-- ==== Proof.BitsR1RunB.lean ====
/-
  The aggregation body run whole in one of its three cases (an inner column block: the accumulator takes the block product): from whole
  staging buffers at given contents to the same buffers with the stored pieces written, the pieces found by the run.
-/
import proofs.«172592_j32658931319165_1_alg».proof.Proof.BitsR1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) :
    Σ' (L10 : List (View.Piece (Elt F) S2048x2 .f32)), { LS0 : List (View.Piece (Elt F) S2048x64 .f32) //
      ∀ (xi10 : Vec F S2048x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Fr

end
-- ==== Proof.BitsR1RunC.lean ====
/-
  The aggregation body run whole in one of its three cases (last column block: the accumulator takes the block product, the node update runs on it, the output block is stored): from whole
  staging buffers at given contents to the same buffers with the stored pieces written, the pieces found by the run.
-/
import proofs.«172592_j32658931319165_1_alg».proof.Proof.BitsR1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) :
    Σ' (L10 : List (View.Piece (Elt F) S2048x2 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.Kernel.Fr

end
-- ==== Proof.BitsR1.lean ====
/-
  The aggregation's pallas_call point by point. After point t = 8·i + k the accumulator holds what case A, B or C of
  the body left there — at k = 0 the reset value plus the first block product, afterwards the previous point's
  accumulator plus this point's block product — and at k = 7 the output window's buffer holds the stored block of
  results; at the other points that buffer is handed back untouched. `outsAt1` is this recursion over the points; the
  region's invariant carries the accumulator at `outsAt1`'s second component from one point to the next.
-/
import proofs.«172592_j32658931319165_1_alg».proof.Proof.BitsR1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: a placeholder nothing consults. -/
def out1_A_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) : Vec F S2048x2 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)
theorem scover1_A_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (y : S2048x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S2048x64.size (by sl_kernel_rfl) y
/-- What case A leaves in the accumulator. -/
def sout1_A_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- Case B stores nothing into the output window: a placeholder nothing consults. -/
def out1_B_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x2 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)
theorem scover1_B_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) (y : S2048x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S2048x64.size (by sl_kernel_rfl) y
/-- What case B leaves in the accumulator. -/
def sout1_B_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

theorem cover1_C_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) (y : S2048x2.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S2048x2.size (by sl_kernel_rfl) y
/-- What case C leaves in the output window's buffer. -/
def out1_C_10 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x2 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)
theorem scover1_C_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) (y : S2048x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S2048x64.size (by sl_kernel_rfl) y
/-- What case C leaves in the accumulator. -/
def sout1_C_0 (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## The recursion over the points -/

/-- What the output window's buffer and the accumulator hold after the body at position `n`. -/
def outsAt1 (c : Dev nD) : (n : ℕ) → n < cfg1.N → Vec F S2048x2 .f32 × Vec F S2048x64 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 8 = 0 then
      if h1 : (n + 1) % 8 = 7 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 8 = 7 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The other call's staging buffers, each at some contents. -/
def oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

theorem withOthers1_elim (c : Dev nD) (S : sProp 𝕄) : withOthers1 c S ⊢ iprop(oth1 c ∗ S) := by
  unfold withOthers1 oth1
  iintro ⟨H1, H2, H3, H4, H5, H6, H7, H8, HS⟩
  isplitr [HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

theorem withOthers1_intro (c : Dev nD) (S : sProp 𝕄) : iprop(oth1 c ∗ S) ⊢ withOthers1 c S := by
  unfold withOthers1 oth1
  iintro ⟨⟨H1, H2, H3, H4, H5, H6, H7, H8⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- Before the first point anything may be in the accumulator; before a later point it holds what the point before left. -/
def PhiS1 (c : Dev nD) : (n : ℕ) → n ≤ cfg1.N → sProp 𝕄
  | 0, _ => Pipeline.ΦA spec1 c
  | n + 1, hn => iprop(iprop(oth1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth1 c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(oth1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

end Cert.Kernel.Fr

end
-- ==== Proof.BitsR1Body.lean ====
/-
  The aggregation body meets its obligation at every grid point: by the point's position in its row of column blocks it
  is in one of the three cases, whose whole-body run applies once the invariant has handed over the accumulator at what
  the point before left (anything, at a row's first block, where the body resets it before reading).
-/
import proofs.«172592_j32658931319165_1_alg».proof.Proof.BitsR1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t hc1) (noFlush1_10 t hc1)]
      rw [outsAt1_A V c t h0 h1]
      unfold sout1_A_0; (try dsimp only)
      by_cases hz : t.val = 0
      · rw [PhiS1_castSucc V c t, PhiS1_zero V c _ _ hz, PhiA1_eq]
        iintro ⟨⟨HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        ihave HW' := (withOthers1_elim c _) $$ HW
        icases HW' with ⟨Hoth, HS0⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS1_castSucc V c t, PhiS1_pos V c _ _ hz]
        iintro ⟨⟨⟨Hoth, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

  · by_cases h1 : t.val % 8 = 7
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t hc1], after1_10]
      rw [outsAt1_C V c t h0 h1]
      unfold out1_C_10 sout1_C_0; (try dsimp only)
      by_cases hz : t.val = 0
      · exfalso; omega
      · rw [PhiS1_castSucc V c t, PhiS1_pos V c _ _ hz]
        iintro ⟨⟨⟨Hoth, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        iintro ⟨H0, H1, H2, H3, H4, H5, H6, H7, H8, H9, ⟨%e10, H10⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _)

    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t hc1) (noFlush1_10 t hc1)]
      rw [outsAt1_B V c t h0 h1]
      unfold sout1_B_0; (try dsimp only)
      by_cases hz : t.val = 0
      · exfalso; omega
      · rw [PhiS1_castSucc V c t, PhiS1_pos V c _ _ hz]
        iintro ⟨⟨⟨Hoth, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hoth, HS0⟩, Hg⟩
  isplitl [Hoth HS0]
  · iapply (withOthers1_intro c _)
    isplitl [Hoth]; · iexact Hoth
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.BitsRun.lean ====
/-
  The whole program run: two host slices of the update matrix, the message network's pallas_call, the aggregation's.
  Between two items every unscoped buffer of the core is held whole at named contents — the launch memory, then what
  the host operations write, then each pallas_call's arrays at what its write-backs leave (its inputs as entered) —, so
  that at the end every buffer is read back at the last of these: `run_all`. The frame claim is its reading at the
  twelve arguments, none of which any item writes.
-/
import proofs.«172592_j32658931319165_1_alg».proof.Proof.BitsR0
import proofs.«172592_j32658931319165_1_alg».proof.Proof.BitsR1Body
import proofs.«172592_j32658931319165_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two host slices. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the message network's call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the aggregation's call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host slices write their two results only. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ## No item writes an argument -/

theorem W3_main_arg0 (c : Dev nD) : W3 m ρ c (Proc.devRef .tc main_arg0) = m ((c : Thread nD τ).loc main_arg0) :=
  ((W3_arr m ρ c 2).trans (((dat1 (V2 m ρ) c).arrAt_in 2 rfl _).trans (A_eq1 (V2 m ρ) c 2))).trans <| ((W2_arr m ρ c 0).trans (((dat0 (V1 m ρ) c).arrAt_in 0 rfl _).trans (A_eq0 (V1 m ρ) c 0))).trans <| (W1_of m ρ c main_arg0 (by decide)).trans rfl
theorem V2_main_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans <| (W1_of m ρ c main_arg0 (by decide)).trans rfl
theorem V1_main_arg0 (c : Dev nD) : V1 m ρ c main_arg0 = m ((c : Thread nD τ).loc main_arg0) :=
  (W1_of m ρ c main_arg0 (by decide)).trans rfl
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans <| (W2_of_ne m ρ c main_arg1 (by decide)).trans <| (W1_of m ρ c main_arg1 (by decide)).trans rfl
theorem V2_main_arg1 (c : Dev nD) : V2 m ρ c main_arg1 = m ((c : Thread nD τ).loc main_arg1) :=
  (W2_of_ne m ρ c main_arg1 (by decide)).trans <| (W1_of m ρ c main_arg1 (by decide)).trans rfl
theorem V1_main_arg1 (c : Dev nD) : V1 m ρ c main_arg1 = m ((c : Thread nD τ).loc main_arg1) :=
  (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| ((W2_arr m ρ c 1).trans (((dat0 (V1 m ρ) c).arrAt_in 1 rfl _).trans (A_eq0 (V1 m ρ) c 1))).trans <| (W1_of m ρ c main_arg2 (by decide)).trans rfl
theorem V2_main_arg2 (c : Dev nD) : V2 m ρ c main_arg2 = m ((c : Thread nD τ).loc main_arg2) :=
  ((W2_arr m ρ c 1).trans (((dat0 (V1 m ρ) c).arrAt_in 1 rfl _).trans (A_eq0 (V1 m ρ) c 1))).trans <| (W1_of m ρ c main_arg2 (by decide)).trans rfl
theorem V1_main_arg2 (c : Dev nD) : V1 m ρ c main_arg2 = m ((c : Thread nD τ).loc main_arg2) :=
  (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| ((W2_arr m ρ c 2).trans (((dat0 (V1 m ρ) c).arrAt_in 2 rfl _).trans (A_eq0 (V1 m ρ) c 2))).trans <| (W1_of m ρ c main_arg3 (by decide)).trans rfl
theorem V2_main_arg3 (c : Dev nD) : V2 m ρ c main_arg3 = m ((c : Thread nD τ).loc main_arg3) :=
  ((W2_arr m ρ c 2).trans (((dat0 (V1 m ρ) c).arrAt_in 2 rfl _).trans (A_eq0 (V1 m ρ) c 2))).trans <| (W1_of m ρ c main_arg3 (by decide)).trans rfl
theorem V1_main_arg3 (c : Dev nD) : V1 m ρ c main_arg3 = m ((c : Thread nD τ).loc main_arg3) :=
  (W1_of m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| ((W2_arr m ρ c 3).trans (((dat0 (V1 m ρ) c).arrAt_in 3 rfl _).trans (A_eq0 (V1 m ρ) c 3))).trans <| (W1_of m ρ c main_arg4 (by decide)).trans rfl
theorem V2_main_arg4 (c : Dev nD) : V2 m ρ c main_arg4 = m ((c : Thread nD τ).loc main_arg4) :=
  ((W2_arr m ρ c 3).trans (((dat0 (V1 m ρ) c).arrAt_in 3 rfl _).trans (A_eq0 (V1 m ρ) c 3))).trans <| (W1_of m ρ c main_arg4 (by decide)).trans rfl
theorem V1_main_arg4 (c : Dev nD) : V1 m ρ c main_arg4 = m ((c : Thread nD τ).loc main_arg4) :=
  (W1_of m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| ((W2_arr m ρ c 4).trans (((dat0 (V1 m ρ) c).arrAt_in 4 rfl _).trans (A_eq0 (V1 m ρ) c 4))).trans <| (W1_of m ρ c main_arg5 (by decide)).trans rfl
theorem V2_main_arg5 (c : Dev nD) : V2 m ρ c main_arg5 = m ((c : Thread nD τ).loc main_arg5) :=
  ((W2_arr m ρ c 4).trans (((dat0 (V1 m ρ) c).arrAt_in 4 rfl _).trans (A_eq0 (V1 m ρ) c 4))).trans <| (W1_of m ρ c main_arg5 (by decide)).trans rfl
theorem V1_main_arg5 (c : Dev nD) : V1 m ρ c main_arg5 = m ((c : Thread nD τ).loc main_arg5) :=
  (W1_of m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| (W1_of m ρ c main_arg6 (by decide)).trans rfl
theorem V2_main_arg6 (c : Dev nD) : V2 m ρ c main_arg6 = m ((c : Thread nD τ).loc main_arg6) :=
  (W2_of_ne m ρ c main_arg6 (by decide)).trans <| (W1_of m ρ c main_arg6 (by decide)).trans rfl
theorem V1_main_arg6 (c : Dev nD) : V1 m ρ c main_arg6 = m ((c : Thread nD τ).loc main_arg6) :=
  (W1_of m ρ c main_arg6 (by decide)).trans rfl
theorem W3_main_arg7 (c : Dev nD) : W3 m ρ c (Proc.devRef .tc main_arg7) = m ((c : Thread nD τ).loc main_arg7) :=
  ((W3_arr m ρ c 5).trans (((dat1 (V2 m ρ) c).arrAt_in 5 rfl _).trans (A_eq1 (V2 m ρ) c 5))).trans <| (W2_of_ne m ρ c main_arg7 (by decide)).trans <| (W1_of m ρ c main_arg7 (by decide)).trans rfl
theorem V2_main_arg7 (c : Dev nD) : V2 m ρ c main_arg7 = m ((c : Thread nD τ).loc main_arg7) :=
  (W2_of_ne m ρ c main_arg7 (by decide)).trans <| (W1_of m ρ c main_arg7 (by decide)).trans rfl
theorem V1_main_arg7 (c : Dev nD) : V1 m ρ c main_arg7 = m ((c : Thread nD τ).loc main_arg7) :=
  (W1_of m ρ c main_arg7 (by decide)).trans rfl
theorem W3_main_arg8 (c : Dev nD) : W3 m ρ c (Proc.devRef .tc main_arg8) = m ((c : Thread nD τ).loc main_arg8) :=
  ((W3_arr m ρ c 6).trans (((dat1 (V2 m ρ) c).arrAt_in 6 rfl _).trans (A_eq1 (V2 m ρ) c 6))).trans <| (W2_of_ne m ρ c main_arg8 (by decide)).trans <| (W1_of m ρ c main_arg8 (by decide)).trans rfl
theorem V2_main_arg8 (c : Dev nD) : V2 m ρ c main_arg8 = m ((c : Thread nD τ).loc main_arg8) :=
  (W2_of_ne m ρ c main_arg8 (by decide)).trans <| (W1_of m ρ c main_arg8 (by decide)).trans rfl
theorem V1_main_arg8 (c : Dev nD) : V1 m ρ c main_arg8 = m ((c : Thread nD τ).loc main_arg8) :=
  (W1_of m ρ c main_arg8 (by decide)).trans rfl
theorem W3_main_arg9 (c : Dev nD) : W3 m ρ c (Proc.devRef .tc main_arg9) = m ((c : Thread nD τ).loc main_arg9) :=
  ((W3_arr m ρ c 7).trans (((dat1 (V2 m ρ) c).arrAt_in 7 rfl _).trans (A_eq1 (V2 m ρ) c 7))).trans <| (W2_of_ne m ρ c main_arg9 (by decide)).trans <| (W1_of m ρ c main_arg9 (by decide)).trans rfl
theorem V2_main_arg9 (c : Dev nD) : V2 m ρ c main_arg9 = m ((c : Thread nD τ).loc main_arg9) :=
  (W2_of_ne m ρ c main_arg9 (by decide)).trans <| (W1_of m ρ c main_arg9 (by decide)).trans rfl
theorem V1_main_arg9 (c : Dev nD) : V1 m ρ c main_arg9 = m ((c : Thread nD τ).loc main_arg9) :=
  (W1_of m ρ c main_arg9 (by decide)).trans rfl
theorem W3_main_arg10 (c : Dev nD) : W3 m ρ c (Proc.devRef .tc main_arg10) = m ((c : Thread nD τ).loc main_arg10) :=
  ((W3_arr m ρ c 8).trans (((dat1 (V2 m ρ) c).arrAt_in 8 rfl _).trans (A_eq1 (V2 m ρ) c 8))).trans <| (W2_of_ne m ρ c main_arg10 (by decide)).trans <| (W1_of m ρ c main_arg10 (by decide)).trans rfl
theorem V2_main_arg10 (c : Dev nD) : V2 m ρ c main_arg10 = m ((c : Thread nD τ).loc main_arg10) :=
  (W2_of_ne m ρ c main_arg10 (by decide)).trans <| (W1_of m ρ c main_arg10 (by decide)).trans rfl
theorem V1_main_arg10 (c : Dev nD) : V1 m ρ c main_arg10 = m ((c : Thread nD τ).loc main_arg10) :=
  (W1_of m ρ c main_arg10 (by decide)).trans rfl
theorem W3_main_arg11 (c : Dev nD) : W3 m ρ c (Proc.devRef .tc main_arg11) = m ((c : Thread nD τ).loc main_arg11) :=
  ((W3_arr m ρ c 9).trans (((dat1 (V2 m ρ) c).arrAt_in 9 rfl _).trans (A_eq1 (V2 m ρ) c 9))).trans <| (W2_of_ne m ρ c main_arg11 (by decide)).trans <| (W1_of m ρ c main_arg11 (by decide)).trans rfl
theorem V2_main_arg11 (c : Dev nD) : V2 m ρ c main_arg11 = m ((c : Thread nD τ).loc main_arg11) :=
  (W2_of_ne m ρ c main_arg11 (by decide)).trans <| (W1_of m ρ c main_arg11 (by decide)).trans rfl
theorem V1_main_arg11 (c : Dev nD) : V1 m ρ c main_arg11 = m ((c : Thread nD τ).loc main_arg11) :=
  (W1_of m ρ c main_arg11 (by decide)).trans rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two pallas_calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame claim's post: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c)⟩) (run_all m ρ)

end Cert.Kernel.Fr

end
-- ==== Proof.Payloads.lean ====
/-
  What the two kernel bodies compute, read at one entry of the block they store, over the extended reals: a change of
  float format is the identity, a matrix product into a zero accumulator is the sum over the contracted axis, a bias
  row cast to one row and broadcast down the block is its entry at the column.
-/
import proofs.«172592_j32658931319165_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The four matrix products at an index -/

/-! ### The 2048×4 by 4×64 product -/

private theorem lhsA_0 (i : S2048x64.Idx) (q : dot_S2048x4_S4x64_S2048x64_1_0_0_1_n_n.contr.Idx) :
    (dot_S2048x4_S4x64_S2048x64_1_0_0_1_n_n.lhsIdx i q 0).val = (i 0).val := by
  unfold DotDims.lhsIdx
  rw [dif_neg (show ¬(0 : Fin S2048x4.rank) ∈ dot_S2048x4_S4x64_S2048x64_1_0_0_1_n_n.lhsBatch by decide), dif_pos (show (0 : Fin S2048x4.rank) ∈ dot_S2048x4_S4x64_S2048x64_1_0_0_1_n_n.lhsNonContracting by decide)]
  rfl
private theorem lhsA_1 (i : S2048x64.Idx) (q : dot_S2048x4_S4x64_S2048x64_1_0_0_1_n_n.contr.Idx) :
    (dot_S2048x4_S4x64_S2048x64_1_0_0_1_n_n.lhsIdx i q 1).val = (q ⟨0, by decide⟩).val :=
  dot_S2048x4_S4x64_S2048x64_1_0_0_1_n_n.lhsIdx_val_of_single rfl i q
private theorem rhsA_0 (i : S2048x64.Idx) (q : dot_S2048x4_S4x64_S2048x64_1_0_0_1_n_n.contr.Idx) :
    (dot_S2048x4_S4x64_S2048x64_1_0_0_1_n_n.rhsIdx i q 0).val = (q ⟨0, by decide⟩).val :=
  dot_S2048x4_S4x64_S2048x64_1_0_0_1_n_n.rhsIdx_val_of_single rfl i q
private theorem rhsA_1 (i : S2048x64.Idx) (q : dot_S2048x4_S4x64_S2048x64_1_0_0_1_n_n.contr.Idx) :
    (dot_S2048x4_S4x64_S2048x64_1_0_0_1_n_n.rhsIdx i q 1).val = (i 1).val := by
  unfold DotDims.rhsIdx
  rw [dif_neg (show ¬(1 : Fin S4x64.rank) ∈ dot_S2048x4_S4x64_S2048x64_1_0_0_1_n_n.rhsBatch by decide), dif_pos (show (1 : Fin S4x64.rank) ∈ dot_S2048x4_S4x64_S2048x64_1_0_0_1_n_n.rhsNonContracting by decide)]
  rfl

/-- A 2048×4 by 4×64 product into the zero accumulator, at row p and column q, is the sum over the contracted axis. -/
theorem mmA_apply (x : FVec Ideal S2048x4 .bf16) (y : FVec Ideal S4x64 .bf16) (p : Fin 2048) (q : Fin 64) :
    matmul dot_S2048x4_S4x64_S2048x64_1_0_0_1_n_n none x y (constant (F := Ideal) S2048x64 .f32 0x00000000#32) (ix2 p q)
      = ∑ k : Fin 4, x (ix2 p k) * y (ix2 k q) := by
  simp only [matmul]
  rw [Ideal.matmul_constant_zero_apply, ← Equiv.sum_comp (contrEquiv1 dot_S2048x4_S4x64_S2048x64_1_0_0_1_n_n 4 rfl rfl).symm]
  refine Finset.sum_congr rfl fun k _ => ?_
  have hk := contrEquiv1_symm_val dot_S2048x4_S4x64_S2048x64_1_0_0_1_n_n 4 rfl rfl k
  have el : dot_S2048x4_S4x64_S2048x64_1_0_0_1_n_n.lhsIdx (ix2 p q) ((contrEquiv1 dot_S2048x4_S4x64_S2048x64_1_0_0_1_n_n 4 rfl rfl).symm k) = ix2 p k := funext fun a => Fin.ext (by
    match a with
    | ⟨0, _⟩ => exact lhsA_0 _ _
    | ⟨1, _⟩ => exact (lhsA_1 _ _).trans hk)
  have er : dot_S2048x4_S4x64_S2048x64_1_0_0_1_n_n.rhsIdx (ix2 p q) ((contrEquiv1 dot_S2048x4_S4x64_S2048x64_1_0_0_1_n_n 4 rfl rfl).symm k) = ix2 k q := funext fun a => Fin.ext (by
    match a with
    | ⟨0, _⟩ => exact (rhsA_0 _ _).trans hk
    | ⟨1, _⟩ => exact rhsA_1 _ _)
  rw [el, er]

/-! ### The 2048×64 by 64×64 product -/

private theorem lhsB_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
private theorem lhsB_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
private theorem rhsB_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
private theorem rhsB_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- A 2048×64 by 64×64 product into the zero accumulator, at row p and column q, is the sum over the contracted axis. -/
theorem mmB_apply (x : FVec Ideal S2048x64 .bf16) (y : FVec Ideal S64x64 .bf16) (p : Fin 2048) (q : Fin 64) :
    matmul dot_S2048x64_S64x64_S2048x64_1_0_0_1_n_n none x y (constant (F := Ideal) S2048x64 .f32 0x00000000#32) (ix2 p q)
      = ∑ k : Fin 64, x (ix2 p k) * y (ix2 k q) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p q) ((contrEquiv1 dot_S2048x64_S64x64_S2048x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S2048x64_S64x64_S2048x64_1_0_0_1_n_n.rhsIdx (ix2 p q) ((contrEquiv1 dot_S2048x64_S64x64_S2048x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ### The 2048×2048 by 2048×64 product -/

private theorem lhsC_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
private theorem lhsC_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
private theorem rhsC_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
private theorem rhsC_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- A 2048×2048 by 2048×64 product into the zero accumulator, at row p and column q, is the sum over the contracted axis. -/
theorem mmC_apply (x : FVec Ideal S2048x2048 .bf16) (y : FVec Ideal S2048x64 .bf16) (p : Fin 2048) (q : Fin 64) :
    matmul dot_S2048x2048_S2048x64_S2048x64_1_0_0_1_n_n none x y (constant (F := Ideal) S2048x64 .f32 0x00000000#32) (ix2 p q)
      = ∑ k : Fin 2048, x (ix2 p k) * y (ix2 k q) := by
  simp only [matmul]
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 p q) ((contrEquiv1 dot_S2048x2048_S2048x64_S2048x64_1_0_0_1_n_n 2048 rfl rfl).symm k) = ix2 p k := funext fun a => Fin.ext (by
    match a with
    | ⟨0, _⟩ => exact lhsC_0 _ _
    | ⟨1, _⟩ => exact (lhsC_1 _ _).trans hk)
  have er : dot_S2048x2048_S2048x64_S2048x64_1_0_0_1_n_n.rhsIdx (ix2 p q) ((contrEquiv1 dot_S2048x2048_S2048x64_S2048x64_1_0_0_1_n_n 2048 rfl rfl).symm k) = ix2 k q := funext fun a => Fin.ext (by
    match a with
    | ⟨0, _⟩ => exact (rhsC_0 _ _).trans hk
    | ⟨1, _⟩ => exact rhsC_1 _ _)
  rw [el, er]

/-! ### The 2048×64 by 64×2 product -/

private theorem lhsD_0 (i : S2048x2.Idx) (q : dot_S2048x64_S64x2_S2048x2_1_0_0_1_n_n.contr.Idx) :
    (dot_S2048x64_S64x2_S2048x2_1_0_0_1_n_n.lhsIdx i q 0).val = (i 0).val := by
  unfold DotDims.lhsIdx
  rw [dif_neg (show ¬(0 : Fin S2048x64.rank) ∈ dot_S2048x64_S64x2_S2048x2_1_0_0_1_n_n.lhsBatch by decide), dif_pos (show (0 : Fin S2048x64.rank) ∈ dot_S2048x64_S64x2_S2048x2_1_0_0_1_n_n.lhsNonContracting by decide)]
  rfl
private theorem lhsD_1 (i : S2048x2.Idx) (q : dot_S2048x64_S64x2_S2048x2_1_0_0_1_n_n.contr.Idx) :
    (dot_S2048x64_S64x2_S2048x2_1_0_0_1_n_n.lhsIdx i q 1).val = (q ⟨0, by decide⟩).val :=
  dot_S2048x64_S64x2_S2048x2_1_0_0_1_n_n.lhsIdx_val_of_single rfl i q
private theorem rhsD_0 (i : S2048x2.Idx) (q : dot_S2048x64_S64x2_S2048x2_1_0_0_1_n_n.contr.Idx) :
    (dot_S2048x64_S64x2_S2048x2_1_0_0_1_n_n.rhsIdx i q 0).val = (q ⟨0, by decide⟩).val :=
  dot_S2048x64_S64x2_S2048x2_1_0_0_1_n_n.rhsIdx_val_of_single rfl i q
private theorem rhsD_1 (i : S2048x2.Idx) (q : dot_S2048x64_S64x2_S2048x2_1_0_0_1_n_n.contr.Idx) :
    (dot_S2048x64_S64x2_S2048x2_1_0_0_1_n_n.rhsIdx i q 1).val = (i 1).val := by
  unfold DotDims.rhsIdx
  rw [dif_neg (show ¬(1 : Fin S64x2.rank) ∈ dot_S2048x64_S64x2_S2048x2_1_0_0_1_n_n.rhsBatch by decide), dif_pos (show (1 : Fin S64x2.rank) ∈ dot_S2048x64_S64x2_S2048x2_1_0_0_1_n_n.rhsNonContracting by decide)]
  rfl

/-- A 2048×64 by 64×2 product into the zero accumulator, at row p and column q, is the sum over the contracted axis. -/
theorem mmD_apply (x : FVec Ideal S2048x64 .bf16) (y : FVec Ideal S64x2 .bf16) (p : Fin 2048) (q : Fin 2) :
    matmul dot_S2048x64_S64x2_S2048x2_1_0_0_1_n_n none x y (constant (F := Ideal) S2048x2 .f32 0x00000000#32) (ix2 p q)
      = ∑ k : Fin 64, x (ix2 p k) * y (ix2 k q) := by
  simp only [matmul]
  rw [Ideal.matmul_constant_zero_apply, ← Equiv.sum_comp (contrEquiv1 dot_S2048x64_S64x2_S2048x2_1_0_0_1_n_n 64 rfl rfl).symm]
  refine Finset.sum_congr rfl fun k _ => ?_
  have hk := contrEquiv1_symm_val dot_S2048x64_S64x2_S2048x2_1_0_0_1_n_n 64 rfl rfl k
  have el : dot_S2048x64_S64x2_S2048x2_1_0_0_1_n_n.lhsIdx (ix2 p q) ((contrEquiv1 dot_S2048x64_S64x2_S2048x2_1_0_0_1_n_n 64 rfl rfl).symm k) = ix2 p k := funext fun a => Fin.ext (by
    match a with
    | ⟨0, _⟩ => exact lhsD_0 _ _
    | ⟨1, _⟩ => exact (lhsD_1 _ _).trans hk)
  have er : dot_S2048x64_S64x2_S2048x2_1_0_0_1_n_n.rhsIdx (ix2 p q) ((contrEquiv1 dot_S2048x64_S64x2_S2048x2_1_0_0_1_n_n 64 rfl rfl).symm k) = ix2 k q := funext fun a => Fin.ext (by
    match a with
    | ⟨0, _⟩ => exact (rhsD_0 _ _).trans hk
    | ⟨1, _⟩ => exact rhsD_1 _ _)
  rw [el, er]

/-! ## A bias row cast to one row and broadcast down the block -/

/-- A vector of n entries cast to one row and broadcast over m rows reads, at row p and column q, its entry q. -/
theorem bias_apply {m n : Nat} (v : (⟨1, ![n]⟩ : Shape).Idx → EReal)
    (hc : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ v hc) hb (ix2 p q) = v (ix1 q) :=
  (broadcastTo_1b_ab_apply _ hb p q).trans (shapeCast_a_1a_apply v hc 0 q)

/-! ## The payloads -/

/-- The message kernel's stored block at row p, column q. -/
theorem msg_payload (v0 : Vec Ideal S2048x4 .f32) (v2 : Vec Ideal S4x64 .f32) (v5 : Vec Ideal S64 .f32)
    (v10 : Vec Ideal S64x64 .f32) (v14 : Vec Ideal S64 .f32) (p : Fin 2048) (q : Fin 64) :
    k0_pay1 (F := Ideal) v0 v2 v5 v10 v14 (ix2 p q)
      = (∑ k : Fin 64, Ideal.tanh ((∑ j : Fin 4, v0 (ix2 p j) * v2 (ix2 j k)) + v5 (ix1 k)) * v10 (ix2 k q)) + v14 (ix1 q) := by
  unfold k0_pay1
  refine (congrArg₂ (· + ·) (mmB_apply _ _ p q) (bias_apply v14 _ _ p q)).trans ?_
  refine congrArg (· + v14 (ix1 q)) (Finset.sum_congr rfl fun k _ => ?_)
  refine congrArg (fun t => Ideal.tanh t * v10 (ix2 k q)) ?_
  exact congrArg₂ (· + ·) (mmA_apply _ _ p k) (bias_apply v5 _ _ p k)

/-- The accumulator's reset value is zero everywhere. -/
theorem reset_payload (p : Fin 2048) (q : Fin 64) : k1_pay1 (F := Ideal) (ix2 p q) = 0 := by
  unfold k1_pay1
  rw [shapeCast_self]
  exact Ideal.ofBits_zero_f32

/-- One accumulation step: the accumulator's entry plus the block product's entry. -/
theorem acc_payload (v3 : Vec Ideal S2048x2048 .f32) (v5 : Vec Ideal S2048x64 .bf16) (v7 : Vec Ideal S2048x64 .f32)
    (p : Fin 2048) (q : Fin 64) :
    k1_pay2 (F := Ideal) v3 v5 v7 (ix2 p q) = v7 (ix2 p q) + ∑ k : Fin 2048, v3 (ix2 p k) * v5 (ix2 k q) := by
  unfold k1_pay2
  rw [shapeCast_self, shapeCast_self]
  exact congrArg (v7 (ix2 p q) + ·) (mmC_apply _ _ p q)

/-- The update network applied to a block of aggregated messages `v16` and the block of node features `v17`. -/
theorem upd_payload (v16 : Vec Ideal S2048x64 .f32) (v17 : Vec Ideal S2048x4 .f32) (v19 : Vec Ideal S4x64 .f32)
    (v24 : Vec Ideal S64x64 .f32) (v29 : Vec Ideal S64 .f32) (v35 : Vec Ideal S64x64 .f32) (v38 : Vec Ideal S64 .f32)
    (v44 : Vec Ideal S64x2 .f32) (v47 : Vec Ideal S2 .f32) (p : Fin 2048) (o : Fin 2) :
    k1_pay3 (F := Ideal) v16 v17 v19 v24 v29 v35 v38 v44 v47 (ix2 p o)
      = (∑ k : Fin 64, Ideal.tanh ((∑ j : Fin 64,
            Ideal.tanh (((∑ a : Fin 4, v17 (ix2 p a) * v19 (ix2 a j)) + ∑ b : Fin 64, v16 (ix2 p b) * v24 (ix2 b j)) + v29 (ix1 j))
              * v35 (ix2 j k)) + v38 (ix1 k)) * v44 (ix2 k o)) + v47 (ix1 o) := by
  unfold k1_pay3
  rw [shapeCast_self, shapeCast_self]
  refine (congrArg₂ (· + ·) (mmD_apply _ _ p o) (bias_apply v47 _ _ p o)).trans ?_
  refine congrArg (· + v47 (ix1 o)) (Finset.sum_congr rfl fun k _ => ?_)
  refine congrArg (fun t => Ideal.tanh t * v44 (ix2 k o)) ?_
  refine (congrArg₂ (· + ·) (mmB_apply _ _ p k) (bias_apply v38 _ _ p k)).trans ?_
  refine congrArg (· + v38 (ix1 k)) (Finset.sum_congr rfl fun j _ => ?_)
  refine congrArg (fun t => Ideal.tanh t * v35 (ix2 j k)) ?_
  exact congrArg₂ (· + ·) (congrArg₂ (· + ·) (mmA_apply _ _ p j) (mmB_apply _ _ p j)) (bias_apply v29 _ _ p j)

end Cert.KernelIdeal.Pay

end
-- ==== Proof.Spec.lean ====
/-
  The mathematics both programs compute, over the extended reals, entry by entry.

  A node feature row x[r] (4 numbers) is sent through a two-layer message network,
      msg[r, q] = (sum_k tanh((sum_j x[r, j] * W1[j, k]) + b1[k]) * W2[k, q]) + b2[q],
  the messages are averaged over the graph by the dense adjacency matrix,
      agg[r, q] = sum_k adj[r, k] * msg[k, q],
  and the node update reads the pair (x[r], agg[r]) through a 68-row matrix U1 whose first four rows meet x[r] and
  whose last sixty-four meet agg[r]:
      h1[r, q]  = tanh((sum_k [x | agg][r, k] * U1[k, q]) + c1[q]),
      h2[r, q]  = tanh((sum_k h1[r, k] * U2[k, q]) + c2[q]),
      out[r, o] = (sum_k h2[r, k] * Wo[k, o]) + bo[o].
  `outAt` spells the 68-term sum over the concatenated row; `outSplitAt` spells it as the sum of the two partial
  products (x[r] against the first four rows, agg[r] against the rest) and takes the messages as an array of their
  own. `outAt_eq_outSplitAt` says they agree: a sum over 4 + 64 terms is the sum of its two stretches.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- An array of extended reals of two axes. -/
abbrev Mat (a b : Nat) : Type := (⟨2, ![a, b]⟩ : Shape).Idx → EReal
/-- An array of extended reals of one axis. -/
abbrev Row (a : Nat) : Type := (⟨1, ![a]⟩ : Shape).Idx → EReal

/-- The hidden layer of the message network at node `r`, unit `k`. -/
def msgHidAt (x : Mat 16384 4) (W1 : Mat 4 64) (b1 : Row 64) (r : Fin 16384) (k : Fin 64) : EReal :=
  Ideal.tanh ((∑ j : Fin 4, x (ix2 r j) * W1 (ix2 j k)) + b1 (ix1 k))

/-- The message of node `r`, component `q`. -/
def msgAt (x : Mat 16384 4) (W1 : Mat 4 64) (b1 : Row 64) (W2 : Mat 64 64) (b2 : Row 64) (r : Fin 16384) (q : Fin 64) : EReal :=
  (∑ k : Fin 64, msgHidAt x W1 b1 r k * W2 (ix2 k q)) + b2 (ix1 q)

/-- The aggregated message of node `r`, component `q`, from an array of messages. -/
def aggAt (adj : Mat 16384 16384) (msgs : Mat 16384 64) (r : Fin 16384) (q : Fin 64) : EReal :=
  ∑ k : Fin 16384, adj (ix2 r k) * msgs (ix2 k q)

/-- The head of the update network from its first hidden layer `h1` (as a function of node and unit). -/
def headAt (h1 : Fin 16384 → Fin 64 → EReal) (U2 : Mat 64 64) (c2 : Row 64) (Wo : Mat 64 2) (bo : Row 2)
    (r : Fin 16384) (o : Fin 2) : EReal :=
  (∑ k : Fin 64, Ideal.tanh ((∑ j : Fin 64, h1 r j * U2 (ix2 j k)) + c2 (ix1 k)) * Wo (ix2 k o)) + bo (ix1 o)

/-- The concatenated row `[x[r] | agg[r]]` at position `k` of 68. -/
def catAt (x : Mat 16384 4) (agg : Fin 16384 → Fin 64 → EReal) (r : Fin 16384) (k : Fin 68) : EReal :=
  if h : k.val < 4 then x (ix2 r ⟨k.val, h⟩) else agg r ⟨k.val - 4, by omega⟩

/-- The first hidden layer of the update network, the 68-term sum over the concatenated row. -/
def updCatAt (x : Mat 16384 4) (agg : Fin 16384 → Fin 64 → EReal) (U1 : Mat 68 64) (c1 : Row 64) (r : Fin 16384) (q : Fin 64) : EReal :=
  Ideal.tanh ((∑ k : Fin 68, catAt x agg r k * U1 (ix2 k q)) + c1 (ix1 q))

/-- The same layer as the sum of two partial products, the matrix given as its first four rows and its last sixty-four. -/
def updSplitAt (x : Mat 16384 4) (agg : Fin 16384 → Fin 64 → EReal) (U1x : Mat 4 64) (U1a : Mat 64 64) (c1 : Row 64)
    (r : Fin 16384) (q : Fin 64) : EReal :=
  Ideal.tanh (((∑ j : Fin 4, x (ix2 r j) * U1x (ix2 j q)) + ∑ k : Fin 64, agg r k * U1a (ix2 k q)) + c1 (ix1 q))

/-- The result at node `r`, output `o`, every step from the twelve arguments, the update through the concatenated row. -/
def outAt (x : Mat 16384 4) (adj : Mat 16384 16384) (W1 : Mat 4 64) (b1 : Row 64) (W2 : Mat 64 64) (b2 : Row 64)
    (U1 : Mat 68 64) (c1 : Row 64) (U2 : Mat 64 64) (c2 : Row 64) (Wo : Mat 64 2) (bo : Row 2) (r : Fin 16384) (o : Fin 2) : EReal :=
  headAt (updCatAt x (fun r' q' => ∑ k : Fin 16384, adj (ix2 r' k) * msgAt x W1 b1 W2 b2 k q') U1 c1) U2 c2 Wo bo r o

/-- The result at node `r`, output `o`, from an array of messages and the two parts of the update matrix. -/
def outSplitAt (adj : Mat 16384 16384) (msgs : Mat 16384 64) (x : Mat 16384 4) (U1x : Mat 4 64) (U1a : Mat 64 64) (c1 : Row 64)
    (U2 : Mat 64 64) (c2 : Row 64) (Wo : Mat 64 2) (bo : Row 2) (r : Fin 16384) (o : Fin 2) : EReal :=
  headAt (updSplitAt x (aggAt adj msgs) U1x U1a c1) U2 c2 Wo bo r o

end Cert.Spec

end
-- ==== Proof.MsgValue.lean ====
/-
  The first pallas_call's result array, entry by entry: row r of the messages lies in block r / 2048, which grid point
  r / 2048 stores from rows 2048·(r / 2048) … of the node features; the stored block's entry is the message network
  applied to that row, so the whole array is the specification's `msgAt` of the arrays the region was entered with.
-/
import proofs.«172592_j32658931319165_1_alg».proof.Proof.R0
import proofs.«172592_j32658931319165_1_alg».proof.Proof.Payloads
import proofs.«172592_j32658931319165_1_alg».proof.Proof.Spec
import Idealize.ShloMosaic.Lib.Pipeline.Value

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offsets of a two-axis buffer, as a constant function. -/
private theorem zeros2 : (![0, 0] : Fin 2 → Nat) = fun _ => 0 :=
  funext fun a => match a with | ⟨0, _⟩ => rfl | ⟨1, _⟩ => rfl

/-- The zero offset of a one-axis buffer, as a constant function. -/
private theorem zeros1 : (![0] : Fin 1 → Nat) = fun _ => 0 :=
  funext fun a => match a with | ⟨0, _⟩ => rfl

/-- The whole array of messages as one function of its index: entry (r, q) is the message network applied to row r. -/
private abbrev msgArr (a0 : Cert.Spec.Mat 16384 4) (a2 : Cert.Spec.Mat 4 64) (a3 : Cert.Spec.Row 64) (a4 : Cert.Spec.Mat 64 64)
    (a5 : Cert.Spec.Row 64) : S16384x64.Idx → EReal :=
  fun i => Cert.Spec.msgAt a0 a2 a3 a4 a5 ⟨(i 0).val, (i 0).isLt⟩ ⟨(i 1).val, (i 1).isLt⟩

/-- The block indices of the six windows at each of the eight grid points: the node features and the messages move
    with the point along the rows, the four weight arrays stay at their one block. -/
private theorem index_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- The stored block's entry (p, q) is the message of row r, once the loaded blocks read the arrays where row r says. -/
private theorem stored_entry (a0 : Cert.Spec.Mat 16384 4) (a2 : Cert.Spec.Mat 4 64) (a3 : Cert.Spec.Row 64)
    (a4 : Cert.Spec.Mat 64 64) (a5 : Cert.Spec.Row 64)
    (x0 : Vec Ideal S2048x4 .f32) (x1 : Vec Ideal S4x64 .f32) (x2 : Vec Ideal S64 .f32) (x3 : Vec Ideal S64x64 .f32)
    (x4 : Vec Ideal S64 .f32) (r : Fin 16384) (p : Fin 2048) (q : Fin 64)
    (h0 : ∀ j : Fin 4, x0 (ix2 p j) = a0 (ix2 r j))
    (h1 : ∀ (j : Fin 4) (k : Fin 64), x1 (ix2 j k) = a2 (ix2 j k))
    (h2 : ∀ k : Fin 64, x2 (ix1 k) = a3 (ix1 k))
    (h3 : ∀ (k : Fin 64) (q' : Fin 64), x3 (ix2 k q') = a4 (ix2 k q'))
    (h4 : ∀ q' : Fin 64, x4 (ix1 q') = a5 (ix1 q')) :
    k0_pay1 (F := Ideal) x0 x1 x2 x3 x4 (ix2 p q) = Cert.Spec.msgAt a0 a2 a3 a4 a5 r q := by
  refine (Cert.KernelIdeal.Pay.msg_payload x0 x1 x2 x3 x4 p q).trans ?_
  unfold Cert.Spec.msgAt Cert.Spec.msgHidAt
  refine congrArg₂ (· + ·) (Finset.sum_congr rfl fun k _ => ?_) (h4 q)
  refine congrArg₂ (· * ·) (congrArg Ideal.tanh (congrArg₂ (· + ·) (Finset.sum_congr rfl fun j _ => ?_) (h2 k))) (h3 k q)
  exact congrArg₂ (· * ·) (h0 j) (h1 j k)

/-- The same at an index of the block and an index of the array that sit T blocks of 2048 rows apart. -/
private theorem stored_at (a0 : Cert.Spec.Mat 16384 4) (a2 : Cert.Spec.Mat 4 64) (a3 : Cert.Spec.Row 64)
    (a4 : Cert.Spec.Mat 64 64) (a5 : Cert.Spec.Row 64)
    (x0 : Vec Ideal S2048x4 .f32) (x1 : Vec Ideal S4x64 .f32) (x2 : Vec Ideal S64 .f32) (x3 : Vec Ideal S64x64 .f32)
    (x4 : Vec Ideal S64 .f32) (T : Nat) (hT : T < 8)
    (h0 : ∀ (p : Fin 2048) (j : Fin 4), x0 (ix2 p j) = a0 (ix2 (⟨T * 2048 + p.val, by omega⟩ : Fin 16384) j))
    (h1 : ∀ (j : Fin 4) (k : Fin 64), x1 (ix2 j k) = a2 (ix2 j k))
    (h2 : ∀ k : Fin 64, x2 (ix1 k) = a3 (ix1 k))
    (h3 : ∀ (k : Fin 64) (q' : Fin 64), x3 (ix2 k q') = a4 (ix2 k q'))
    (h4 : ∀ q' : Fin 64, x4 (ix1 q') = a5 (ix1 q'))
    (y : S2048x64.Idx) (i : S16384x64.Idx)
    (hi0 : (i 0).val = T * 2048 + (y 0).val) (hi1 : (i 1).val = (y 1).val) :
    k0_pay1 (F := Ideal) x0 x1 x2 x3 x4 y = msgArr a0 a2 a3 a4 a5 i := by
  have hy0 : (y 0).val < 2048 := idx2_lt0 y
  have hy1 : (y 1).val < 64 := idx2_lt1 y
  have ey : y = ix2 (⟨(y 0).val, hy0⟩ : Fin 2048) (⟨(y 1).val, hy1⟩ : Fin 64) :=
    funext fun a => match a with | ⟨0, _⟩ => rfl | ⟨1, _⟩ => rfl
  have er : (⟨(i 0).val, (i 0).isLt⟩ : Fin 16384) = ⟨T * 2048 + (y 0).val, by omega⟩ := Fin.ext hi0
  have eq : (⟨(i 1).val, (i 1).isLt⟩ : Fin 64) = ⟨(y 1).val, hy1⟩ := Fin.ext hi1
  show k0_pay1 (F := Ideal) x0 x1 x2 x3 x4 y = Cert.Spec.msgAt a0 a2 a3 a4 a5 ⟨(i 0).val, (i 0).isLt⟩ ⟨(i 1).val, (i 1).isLt⟩
  rw [er, eq]
  refine (congrArg (k0_pay1 (F := Ideal) x0 x1 x2 x3 x4) ey).trans ?_
  exact stored_entry a0 a2 a3 a4 a5 x0 x1 x2 x3 x4 _ _ _ (fun j => h0 _ j) h1 h2 h3 h4

/-- At point t the block of node features reads the array t blocks of 2048 rows down. -/
private theorem feat_block (c : Dev nD) (t : Fin cfg0.N) (p : Fin 2048) (j : Fin 4) :
    (iblk0 (F := Ideal) V c 0 t : S2048x4.Idx → EReal) (ix2 p j)
      = (V c main_arg0 : S16384x4.Idx → EReal)
          (ix2 (⟨t.val * 2048 + p.val, by have ht : t.val < 8 := t.isLt; omega⟩ : Fin 16384) j) := by
  obtain ⟨-, -, e0, e1, -⟩ := index_facts t
  show V c main_arg0 (((cfg0.win 0).blk t).view.emb (ix2 p j)) = V c main_arg0 _
  refine congrArg (V c main_arg0) ?_
  funext a; apply Fin.ext
  match a with
  | ⟨0, _⟩ => show win0_0.index t (0 : Fin 2) * 2048 + 1 * p.val = t.val * 2048 + p.val; omega
  | ⟨1, _⟩ => show win0_0.index t (1 : Fin 2) * 4 + 1 * j.val = j.val; omega

/-- The first weight matrix's block is the matrix. -/
private theorem w1_block (c : Dev nD) (t : Fin cfg0.N) (j : Fin 4) (k : Fin 64) :
    (iblk0 (F := Ideal) V c 1 t : S4x64.Idx → EReal) (ix2 j k) = (V c main_arg2 : S4x64.Idx → EReal) (ix2 j k) := by
  obtain ⟨-, -, -, -, e0, e1, -⟩ := index_facts t
  show V c main_arg2 (((cfg0.win 1).blk t).view.emb (ix2 j k)) = V c main_arg2 _
  refine congrArg (V c main_arg2) ?_
  funext a; apply Fin.ext
  match a with
  | ⟨0, _⟩ => show win0_1.index t (0 : Fin 2) * 4 + 1 * j.val = j.val; omega
  | ⟨1, _⟩ => show win0_1.index t (1 : Fin 2) * 64 + 1 * k.val = k.val; omega

/-- The first bias row's block is the row. -/
private theorem b1_block (c : Dev nD) (t : Fin cfg0.N) (k : Fin 64) :
    (iblk0 (F := Ideal) V c 2 t : S64.Idx → EReal) (ix1 k) = (V c main_arg3 : S64.Idx → EReal) (ix1 k) := by
  obtain ⟨-, -, -, -, -, -, e0, -⟩ := index_facts t
  show V c main_arg3 (((cfg0.win 2).blk t).view.emb (ix1 k)) = V c main_arg3 _
  refine congrArg (V c main_arg3) ?_
  funext a; apply Fin.ext
  match a with
  | ⟨0, _⟩ => show win0_2.index t (0 : Fin 1) * 64 + 1 * k.val = k.val; omega

/-- The second weight matrix's block is the matrix. -/
private theorem w2_block (c : Dev nD) (t : Fin cfg0.N) (k : Fin 64) (q : Fin 64) :
    (iblk0 (F := Ideal) V c 3 t : S64x64.Idx → EReal) (ix2 k q) = (V c main_arg4 : S64x64.Idx → EReal) (ix2 k q) := by
  obtain ⟨-, -, -, -, -, -, -, e0, e1, -⟩ := index_facts t
  show V c main_arg4 (((cfg0.win 3).blk t).view.emb (ix2 k q)) = V c main_arg4 _
  refine congrArg (V c main_arg4) ?_
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The second bias row's block is the row. -/
private theorem b2_block (c : Dev nD) (t : Fin cfg0.N) (q : Fin 64) :
    (iblk0 (F := Ideal) V c 4 t : S64.Idx → EReal) (ix1 q) = (V c main_arg5 : S64.Idx → EReal) (ix1 q) := by
  obtain ⟨-, -, -, -, -, -, -, -, -, e0⟩ := index_facts t
  show V c main_arg5 (((cfg0.win 4).blk t).view.emb (ix1 q)) = V c main_arg5 _
  refine congrArg (V c main_arg5) ?_
  funext a; apply Fin.ext
  match a with
  | ⟨0, _⟩ => show win0_4.index t (0 : Fin 1) * 64 + 1 * q.val = q.val; omega

/-- What point t writes back is block t of the array of messages. -/
private theorem flushed_msg (c : Dev nD) (t : Fin cfg0.N) :
    (dat0 (F := Ideal) V c).flushed 5 t = ((cfg0.win 5).blk t).view.read (Elt Ideal)
      (msgArr (V c main_arg0) (V c main_arg2) (V c main_arg3) (V c main_arg4) (V c main_arg5)) := by
  show (cfg0.win 5).cut (grid0.coords t) ((dat0 (F := Ideal) V c).after 5 t) = _
  rw [after0_5]
  unfold out0_5
  rw [View.canon_unit_zero zeros2]
  simp only [View.ld_unit_zero (S := S2048x4) zeros2, View.ld_unit_zero (S := S4x64) zeros2,
    View.ld_unit_zero (S := S64) zeros1, View.ld_unit_zero (S := S64x64) zeros2]
  have ht : t.val < 8 := t.isLt
  obtain ⟨e0, e1, -⟩ := index_facts t
  funext y
  show k0_pay1 (F := Ideal) (iblk0 V c 0 t) (iblk0 V c 1 t) (iblk0 V c 2 t) (iblk0 V c 3 t) (iblk0 V c 4 t) y
    = msgArr (V c main_arg0) (V c main_arg2) (V c main_arg3) (V c main_arg4) (V c main_arg5) (((cfg0.win 5).blk t).view.emb y)
  refine stored_at (V c main_arg0) (V c main_arg2) (V c main_arg3) (V c main_arg4) (V c main_arg5)
    (iblk0 V c 0 t) (iblk0 V c 1 t) (iblk0 V c 2 t) (iblk0 V c 3 t) (iblk0 V c 4 t) t.val ht
    (fun p j => feat_block V c t p j) (fun j k => w1_block V c t j k) (fun k => b1_block V c t k)
    (fun k q' => w2_block V c t k q') (fun q' => b2_block V c t q') y (((cfg0.win 5).blk t).view.emb y) ?_ ?_
  · show win0_5.index t (0 : Fin 2) * 2048 + 1 * (y 0).val = t.val * 2048 + (y 0).val; omega
  · show win0_5.index t (1 : Fin 2) * 64 + 1 * (y 1).val = (y 1).val; omega

/-- An index of the array is in point t's block iff each coordinate is in the block's range on its axis. -/
private theorem mem_block (t : Fin cfg0.N) (i : S16384x64.Idx) :
    i ∈ ((cfg0.win 5).blk t).view.set ↔ ∀ a : Fin 2, win0_5.index t a * S2048x64.size a ≤ (i a).val
      ∧ (i a).val < win0_5.index t a * S2048x64.size a + S2048x64.size a := by
  show i ∈ ((View.whole main_v2).slice (win0_5.rect t)).set ↔ _
  rw [View.set_slice_whole, Rect.mem_set_unit]
  exact Iff.rfl

/-- Row r of the array lies in the block of point r / 2048, and every point writes its block back. -/
private theorem covered (i : S16384x64.Idx) :
    ∃ t : Fin cfg0.N, (cfg0.win 5).flush t = true ∧ i ∈ ((cfg0.win 5).blk t).view.set := by
  have hi0 : (i 0).val < 16384 := idx2_lt0 i
  have hi1 : (i 1).val < 64 := idx2_lt1 i
  have hN : (i 0).val / 2048 < cfg0.N := by show (i 0).val / 2048 < 8; omega
  obtain ⟨e0, e1, -⟩ := index_facts ⟨(i 0).val / 2048, hN⟩
  have e0' : win0_5.index ⟨(i 0).val / 2048, hN⟩ (0 : Fin 2) = (i 0).val / 2048 := e0
  refine ⟨⟨(i 0).val / 2048, hN⟩, flush0_5 _, ?_⟩
  rw [mem_block]
  intro a
  match a with
  | ⟨0, _⟩ =>
    show win0_5.index ⟨(i 0).val / 2048, hN⟩ (0 : Fin 2) * 2048 ≤ (i 0).val
      ∧ (i 0).val < win0_5.index ⟨(i 0).val / 2048, hN⟩ (0 : Fin 2) * 2048 + 2048
    omega
  | ⟨1, _⟩ =>
    show win0_5.index ⟨(i 0).val / 2048, hN⟩ (1 : Fin 2) * 64 ≤ (i 1).val
      ∧ (i 1).val < win0_5.index ⟨(i 0).val / 2048, hN⟩ (1 : Fin 2) * 64 + 64
    omega

/-- After the eight points the array of messages is the message network applied row by row. -/
private theorem msg_array (c : Dev nD) :
    (dat0 (F := Ideal) V c).arrAt 5 cfg0.N
      = msgArr (V c main_arg0) (V c main_arg2) (V c main_arg3) (V c main_arg4) (V c main_arg5) :=
  (dat0 (F := Ideal) V c).arrAt_eq_of_cover 5
    (msgArr (V c main_arg0) (V c main_arg2) (V c main_arg3) (V c main_arg4) (V c main_arg5))
    (fun t _ => flushed_msg V c t) covered

theorem msg_value (c : Dev nD) (r : Fin 16384) (q : Fin 64) :
    ((dat0 (F := Ideal) V c).arrAt 5 cfg0.N : S16384x64.Idx → EReal) (ix2 r q)
      = Cert.Spec.msgAt (V c main_arg0) (V c main_arg2) (V c main_arg3) (V c main_arg4) (V c main_arg5) r q :=
  congrFun (msg_array V c) (ix2 r q)

end Cert.KernelIdeal.Fr

end
-- ==== Proof.Pieces.lean ====
/-
  What each case of the aggregation body leaves, as arithmetic: the accumulator after a row's first block is the reset
  value taken through one accumulation step, after any later block the carried accumulator taken through one; the
  stored output block is the node update applied to the accumulator as the same point has just left it.
-/
import proofs.«172592_j32658931319165_1_alg».proof.Proof.R1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a two-axis buffer, as a constant function. -/
private theorem zeros2 : (![0, 0] : Fin 2 → Nat) = fun _ => 0 :=
  funext fun a => match a with | ⟨0, _⟩ => rfl | ⟨1, _⟩ => rfl

/-- The zero offset of a one-axis buffer, as a constant function. -/
private theorem zeros1 : (![0] : Fin 1 → Nat) = fun _ => 0 :=
  funext fun a => match a with | ⟨0, _⟩ => rfl

/-- After case A: the reset value plus the block product. -/
theorem sout1_A_0_eq (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) :
    sout1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = k1_pay2 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun1_A
  dsimp only
  sl_unfold_words
  rw [View.canon_cons_unit_zero (S := S2048x64) zeros2]
  simp only [View.readCov_unit_zero (S := S2048x64) _ zeros2, View.readAt_eq_ld, harg2.read_unread, harg3.read_unread,
    View.ld_unit_zero (S := S2048x2048) zeros2, View.ld_unit_zero (S := S2048x64) zeros2]

/-- After case B: the carried accumulator plus the block product. -/
theorem sout1_B_0_eq (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : ¬cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) :
    sout1_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = k1_pay2 x0 x1 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun1_B
  dsimp only
  sl_unfold_words
  rw [View.canon_unit_zero (S := S2048x64) zeros2]
  simp only [View.readAt_eq_ld, harg2.read_unread, harg3.read_unread, harg13.read_unread,
    View.ld_unit_zero (S := S2048x2048) zeros2, View.ld_unit_zero (S := S2048x64) zeros2]

/-- After case C: the carried accumulator plus the block product. -/
theorem sout1_C_0_eq (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) :
    sout1_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = k1_pay2 x0 x1 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun1_C
  dsimp only
  sl_unfold_words
  rw [View.canon_unit_zero (S := S2048x64) zeros2]
  simp only [View.readAt_eq_ld, harg2.read_unread, harg3.read_unread, harg13.read_unread,
    View.ld_unit_zero (S := S2048x2048) zeros2, View.ld_unit_zero (S := S2048x64) zeros2]

/-- Case C's stored block: the node update of the accumulator just left and of the point's other blocks. -/
theorem out1_C_10_eq (c : Dev nD) (i : grid1.Coords) (arg2 : Memref sig .tc .vmem S2048x2048 .f32) (harg2 : arg2.IsWhole) (arg3 : Memref sig .tc .vmem S2048x64 .bf16) (harg3 : arg3.IsWhole) (arg4 : Memref sig .tc .vmem S2048x4 .f32) (harg4 : arg4.IsWhole) (arg5 : Memref sig .tc .vmem S4x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S2048x2 .f32) (harg12 : arg12.IsWhole) (arg13 : Memref sig .tc .vmem S2048x64 .f32) (harg13 : arg13.IsWhole) (hc0 : ¬cond1_0 i) (hc1 : cond1_1 i)
    (x0 : Vec F S2048x2048 .f32) (x1 : Vec F S2048x64 .bf16) (x2 : Vec F S2048x4 .f32) (x3 : Vec F S4x64 .f32) (x4 : Vec F S64x64 .f32) (x5 : Vec F S64 .f32) (x6 : Vec F S64x64 .f32) (x7 : Vec F S64 .f32) (x8 : Vec F S64x2 .f32) (x9 : Vec F S2 .f32) (xs0 : Vec F S2048x64 .f32) :
    out1_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = k1_pay3 (k1_pay2 x0 x1 xs0) x2 x3 x4 x5 x6 x7 x8 x9 := by
  unfold out1_C_10
  rw [View.read_writes_eq_canon _ _ _ (cover1_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun1_C
  dsimp only
  sl_unfold_words
  rw [View.canon_unit_zero (S := S2048x2) zeros2]
  simp only [View.readCov_unit_zero (S := S2048x64) _ zeros2, View.readAt_eq_ld, harg2.read_unread, harg3.read_unread,
    harg4.read_unread, harg5.read_unread, harg6.read_unread, harg7.read_unread, harg8.read_unread, harg9.read_unread,
    harg10.read_unread, harg11.read_unread, harg13.read_unread,
    View.ld_unit_zero (S := S2048x2048) zeros2, View.ld_unit_zero (S := S2048x64) zeros2,
    View.ld_unit_zero (S := S2048x4) zeros2, View.ld_unit_zero (S := S4x64) zeros2, View.ld_unit_zero (S := S64x64) zeros2,
    View.ld_unit_zero (S := S64) zeros1, View.ld_unit_zero (S := S64x2) zeros2, View.ld_unit_zero (S := S2) zeros1]

end Cert.KernelIdeal.Fr

end
-- ==== Proof.AccValue.lean ====
/-
  The accumulator over a row of column blocks. Point t = 8·i + k works on rows 2048·i … 2048·i + 2047; after it the
  accumulator's entry (p, q) is the sum, over the column blocks 0 … k met so far, of the block products' entries —
  adjacency row 2048·i + p against message column q over the block's 2048 positions. After the row's last block
  (k = 7) the eight block sums together run over all 16384 positions: the aggregated message of node 2048·i + p.
-/
import proofs.«172592_j32658931319165_1_alg».proof.Proof.R1
import proofs.«172592_j32658931319165_1_alg».proof.Proof.Pieces
import proofs.«172592_j32658931319165_1_alg».proof.Proof.Payloads
import proofs.«172592_j32658931319165_1_alg».proof.Proof.Spec
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The adjacency matrix as the region finds it. -/
abbrev adjA (c : Dev nD) : Cert.Spec.Mat 16384 16384 := V c main_arg1
/-- The messages as the region finds them. -/
abbrev msgA (c : Dev nD) : Cert.Spec.Mat 16384 64 := V c main_v2

/-- The node a point's block row `p` belongs to. -/
def rowOf (t : Fin cfg1.N) (p : Fin 2048) : Fin 16384 :=
  ⟨2048 * (t.val / 8) + p.val, by have h1 := t.isLt; have h2 : cfg1.N = 64 := N_1; omega⟩

/-- Position `j` of column block `kb`. -/
def colOf (kb : Fin 8) (j : Fin 2048) : Fin 16384 := ⟨2048 * kb.val + j.val, by omega⟩

/-- The block indices of the adjacency and message windows at each of the 64 grid points: point t = 8·i + k reads
    adjacency block (i, k) and message block (k, 0). -/
private theorem index_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0 :=
  (by decide +kernel : ∀ t : Fin grid1.N, _)

/-- A point's column block, as a block number. -/
private abbrev kOf (t : Fin cfg1.N) : Fin 8 := ⟨t.val % 8, Nat.mod_lt _ (by decide)⟩

/-- At point t the adjacency block's entry (p, j) is the matrix's entry at the row of p and position j of the point's
    column block. -/
private theorem adj_block (c : Dev nD) (t : Fin cfg1.N) (p : Fin 2048) (j : Fin 2048) :
    (iblk1 (F := Ideal) V c 0 t : S2048x2048.Idx → EReal) (ix2 p j)
      = adjA V c (ix2 (rowOf t p) (colOf (kOf t) j)) := by
  obtain ⟨e0, e1, -, -⟩ := index_facts t
  show V c main_arg1 (((cfg1.win 0).blk t).view.emb (ix2 p j)) = V c main_arg1 _
  refine congrArg (V c main_arg1) ?_
  funext a; apply Fin.ext
  match a with
  | ⟨0, _⟩ => show win1_0.index t (0 : Fin 2) * 2048 + 1 * p.val = 2048 * (t.val / 8) + p.val; omega
  | ⟨1, _⟩ => show win1_0.index t (1 : Fin 2) * 2048 + 1 * j.val = 2048 * (t.val % 8) + j.val; omega

/-- At point t the message block's entry (j, q) is the messages' entry at position j of the point's column block. -/
private theorem msg_block (c : Dev nD) (t : Fin cfg1.N) (j : Fin 2048) (q : Fin 64) :
    (iblk1 (F := Ideal) V c 1 t : S2048x64.Idx → EReal) (ix2 j q)
      = msgA V c (ix2 (colOf (kOf t) j) q) := by
  obtain ⟨-, -, e0, e1⟩ := index_facts t
  show V c main_v2 (((cfg1.win 1).blk t).view.emb (ix2 j q)) = V c main_v2 _
  refine congrArg (V c main_v2) ?_
  funext a; apply Fin.ext
  match a with
  | ⟨0, _⟩ => show win1_1.index t (0 : Fin 2) * 2048 + 1 * j.val = 2048 * (t.val % 8) + j.val; omega
  | ⟨1, _⟩ => show win1_1.index t (1 : Fin 2) * 64 + 1 * q.val = q.val; omega

/-- One block product's entry: adjacency row r against message column q over the 2048 positions of column block kb. -/
private def blockTerm (A : Cert.Spec.Mat 16384 16384) (M : Cert.Spec.Mat 16384 64) (r : Fin 16384) (q : Fin 64)
    (kb : Fin 8) : EReal :=
  ∑ j : Fin 2048, A (ix2 r (colOf kb j)) * M (ix2 (colOf kb j) q)

/-- The sum over the column blocks up to block 0 is block 0's term. -/
private theorem sum_le_zero (f : Fin 8 → EReal) : (∑ kb : Fin 8, if kb.val ≤ 0 then f kb else 0) = f 0 := by
  have h : ∀ kb : Fin 8, (if kb.val ≤ 0 then f kb else 0) = (if kb = 0 then f kb else 0) := by
    intro kb
    by_cases h0 : kb = 0
    · rw [if_pos h0, if_pos (by rw [h0]; exact Nat.le_refl _)]
    · have h1 : ¬kb.val ≤ 0 := fun h => h0 (Fin.ext (Nat.le_zero.mp h))
      rw [if_neg h0, if_neg h1]
  rw [Finset.sum_congr rfl fun kb _ => h kb, Finset.sum_ite_eq' Finset.univ (0 : Fin 8) f, if_pos (Finset.mem_univ _)]

/-- The sum over the column blocks up to block k + 1 is the sum up to block k plus block k + 1's term. -/
private theorem sum_le_succ (f : Fin 8 → EReal) (k : ℕ) (hk : k + 1 < 8) :
    (∑ kb : Fin 8, if kb.val ≤ k + 1 then f kb else 0)
      = (∑ kb : Fin 8, if kb.val ≤ k then f kb else 0) + f ⟨k + 1, hk⟩ := by
  have h : ∀ kb : Fin 8, (if kb.val ≤ k + 1 then f kb else 0)
      = (if kb.val ≤ k then f kb else 0) + (if kb = ⟨k + 1, hk⟩ then f kb else 0) := by
    intro kb
    by_cases h1 : kb.val ≤ k
    · have h3 : kb ≠ ⟨k + 1, hk⟩ := fun h => by have := congrArg Fin.val h; simp only at this; omega
      rw [if_pos h1, if_pos (show kb.val ≤ k + 1 by omega), if_neg h3, add_zero]
    · by_cases h2 : kb.val = k + 1
      · rw [if_neg h1, if_pos (show kb.val ≤ k + 1 by omega), if_pos (Fin.ext h2), zero_add]
      · have h3 : kb ≠ ⟨k + 1, hk⟩ := fun h => h2 (congrArg Fin.val h)
        rw [if_neg h1, if_neg (show ¬kb.val ≤ k + 1 by omega), if_neg h3, add_zero]
  rw [Finset.sum_congr rfl fun kb _ => h kb, Finset.sum_add_distrib,
    Finset.sum_ite_eq' Finset.univ (⟨k + 1, hk⟩ : Fin 8) f, if_pos (Finset.mem_univ _)]

/-- One accumulation step at entry (p, q), once the loaded blocks read the arrays at row r and column block kb. -/
private theorem step_entry (A : Cert.Spec.Mat 16384 16384) (M : Cert.Spec.Mat 16384 64)
    (x0 : Vec Ideal S2048x2048 .f32) (x1 : Vec Ideal S2048x64 .bf16) (xs : Vec Ideal S2048x64 .f32)
    (r : Fin 16384) (kb : Fin 8) (p : Fin 2048) (q : Fin 64)
    (h0 : ∀ j : Fin 2048, x0 (ix2 p j) = A (ix2 r (colOf kb j)))
    (h1 : ∀ j : Fin 2048, x1 (ix2 j q) = M (ix2 (colOf kb j) q)) :
    k1_pay2 (F := Ideal) x0 x1 xs (ix2 p q) = xs (ix2 p q) + blockTerm A M r q kb := by
  refine (Cert.KernelIdeal.Pay.acc_payload x0 x1 xs p q).trans ?_
  unfold blockTerm
  exact congrArg (xs (ix2 p q) + ·) (Finset.sum_congr rfl fun j _ => congrArg₂ (· * ·) (h0 j) (h1 j))

/-- The accumulator after point n, over every point of the grid. -/
private theorem acc_inv (c : Dev nD) : ∀ (n : ℕ) (hn : n < cfg1.N) (p : Fin 2048) (q : Fin 64),
    ((outsAt1 (F := Ideal) V c n hn).2 : S2048x64.Idx → EReal) (ix2 p q)
      = ∑ kb : Fin 8, if kb.val ≤ n % 8 then blockTerm (adjA V c) (msgA V c) (rowOf ⟨n, hn⟩ p) q kb else 0 := by
  intro n
  induction n using Nat.strong_induction_on with
  | _ n ih =>
    intro hn p q
    have hN : cfg1.N = 64 := N_1
    by_cases h0 : n % 8 = 0
    · -- the row's first block: the reset value plus the block product
      have h1 : ¬n % 8 = 7 := by omega
      rw [outsAt1_A (F := Ideal) V c ⟨n, hn⟩ h0 h1]
      dsimp only
      refine (congrFun (sout1_A_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) (ms1_8 ⟨n, hn⟩) (hs1_8 ⟨n, hn⟩) (ms1_9 ⟨n, hn⟩) (hs1_9 ⟨n, hn⟩) (ms1_10 ⟨n, hn⟩) (hs1_10 ⟨n, hn⟩) scM1_0 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (iblk1 V c 6 ⟨n, hn⟩) (iblk1 V c 7 ⟨n, hn⟩) (iblk1 V c 8 ⟨n, hn⟩) (iblk1 V c 9 ⟨n, hn⟩)) (ix2 p q)).trans ?_
      refine (step_entry (adjA V c) (msgA V c) _ _ _ (rowOf ⟨n, hn⟩ p) (kOf ⟨n, hn⟩) p q
        (fun j => adj_block V c ⟨n, hn⟩ p j) (fun j => msg_block V c ⟨n, hn⟩ j q)).trans ?_
      rw [Cert.KernelIdeal.Pay.reset_payload, zero_add, h0, sum_le_zero]
      exact congrArg (blockTerm (adjA V c) (msgA V c) (rowOf ⟨n, hn⟩ p) q) (Fin.ext h0)
    · -- a later block of the row: the accumulator the point before left plus the block product
      have hn1 : n - 1 < cfg1.N := by omega
      have hk : n % 8 = (n - 1) % 8 + 1 := by omega
      have hk8 : (n - 1) % 8 + 1 < 8 := by omega
      have hrow : rowOf ⟨n - 1, hn1⟩ p = rowOf ⟨n, hn⟩ p := Fin.ext (by
        show 2048 * ((n - 1) / 8) + p.val = 2048 * (n / 8) + p.val
        omega)
      have hkb : kOf ⟨n, hn⟩ = ⟨(n - 1) % 8 + 1, hk8⟩ := Fin.ext hk
      have IH := ih (n - 1) (by omega) hn1 p q
      rw [hrow] at IH
      by_cases h1 : n % 8 = 7
      · rw [outsAt1_C (F := Ideal) V c ⟨n, hn⟩ h0 h1]
        dsimp only
        refine (congrFun (sout1_C_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) (ms1_8 ⟨n, hn⟩) (hs1_8 ⟨n, hn⟩) (ms1_9 ⟨n, hn⟩) (hs1_9 ⟨n, hn⟩) (ms1_10 ⟨n, hn⟩) (hs1_10 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (iblk1 V c 6 ⟨n, hn⟩) (iblk1 V c 7 ⟨n, hn⟩) (iblk1 V c 8 ⟨n, hn⟩) (iblk1 V c 9 ⟨n, hn⟩) (outsAt1 (F := Ideal) V c (n - 1) hn1).2) (ix2 p q)).trans ?_
        refine (step_entry (adjA V c) (msgA V c) _ _ _ (rowOf ⟨n, hn⟩ p) (kOf ⟨n, hn⟩) p q
          (fun j => adj_block V c ⟨n, hn⟩ p j) (fun j => msg_block V c ⟨n, hn⟩ j q)).trans ?_
        rw [IH, hkb, hk]
        exact (sum_le_succ (blockTerm (adjA V c) (msgA V c) (rowOf ⟨n, hn⟩ p) q) ((n - 1) % 8) hk8).symm
      · rw [outsAt1_B (F := Ideal) V c ⟨n, hn⟩ h0 h1]
        dsimp only
        refine (congrFun (sout1_B_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) (ms1_8 ⟨n, hn⟩) (hs1_8 ⟨n, hn⟩) (ms1_9 ⟨n, hn⟩) (hs1_9 ⟨n, hn⟩) (ms1_10 ⟨n, hn⟩) (hs1_10 ⟨n, hn⟩) scM1_0 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (iblk1 V c 6 ⟨n, hn⟩) (iblk1 V c 7 ⟨n, hn⟩) (iblk1 V c 8 ⟨n, hn⟩) (iblk1 V c 9 ⟨n, hn⟩) (outsAt1 (F := Ideal) V c (n - 1) hn1).2) (ix2 p q)).trans ?_
        refine (step_entry (adjA V c) (msgA V c) _ _ _ (rowOf ⟨n, hn⟩ p) (kOf ⟨n, hn⟩) p q
          (fun j => adj_block V c ⟨n, hn⟩ p j) (fun j => msg_block V c ⟨n, hn⟩ j q)).trans ?_
        rw [IH, hkb, hk]
        exact (sum_le_succ (blockTerm (adjA V c) (msgA V c) (rowOf ⟨n, hn⟩ p) q) ((n - 1) % 8) hk8).symm

/-- The eight column blocks of 2048 positions together are the 16384 positions. -/
private theorem sum_blocks (g : Fin 16384 → EReal) :
    (∑ kb : Fin 8, ∑ j : Fin 2048, g (colOf kb j)) = ∑ k : Fin 16384, g k := by
  refine (Fintype.sum_prod_type' (fun (kb : Fin 8) (j : Fin 2048) => g (colOf kb j))).symm.trans ?_
  exact Fintype.sum_equiv (finProdFinEquiv (m := 8) (n := 2048)) _ g (fun x => congrArg g (Fin.ext (by
    show 2048 * x.1.val + x.2.val = x.2.val + 2048 * x.1.val
    omega)))

/-- The accumulator after point `t`: the block products of the column blocks up to this point's, summed. -/
theorem acc_value (c : Dev nD) (t : Fin cfg1.N) (p : Fin 2048) (q : Fin 64) :
    ((outsAt1 (F := Ideal) V c t.val t.isLt).2 : S2048x64.Idx → EReal) (ix2 p q)
      = ∑ kb : Fin 8, if kb.val ≤ t.val % 8 then
          ∑ j : Fin 2048, adjA V c (ix2 (rowOf t p) (colOf kb j)) * msgA V c (ix2 (colOf kb j) q)
        else 0 :=
  acc_inv V c t.val t.isLt p q

/-- After a row's last column block the accumulator holds the aggregated messages of the row's nodes. -/
theorem acc_last (c : Dev nD) (t : Fin cfg1.N) (h7 : t.val % 8 = 7) (p : Fin 2048) (q : Fin 64) :
    ((outsAt1 (F := Ideal) V c t.val t.isLt).2 : S2048x64.Idx → EReal) (ix2 p q)
      = Cert.Spec.aggAt (adjA V c) (msgA V c) (rowOf t p) q := by
  rw [acc_value V c t p q, h7]
  unfold Cert.Spec.aggAt
  rw [Finset.sum_congr rfl fun (kb : Fin 8) _ => if_pos (show kb.val ≤ 7 by omega)]
  exact sum_blocks (fun k => adjA V c (ix2 (rowOf t p) k) * msgA V c (ix2 k q))

end Cert.KernelIdeal.Fr

end
-- ==== Proof.OutValue.lean ====
/-
  The second pallas_call's result array, entry by entry. The output block of row block i is stored, and written back, at
  the row's last column block only; there the stored block is the node update applied to the finished accumulator (the
  aggregated messages of the block's nodes) and to the block's node features. Every row of the result lies in one such
  block, so the whole array is the specification's `outSplitAt` of the arrays the region was entered with.
-/
import proofs.«172592_j32658931319165_1_alg».proof.Proof.R1
import proofs.«172592_j32658931319165_1_alg».proof.Proof.Pieces
import proofs.«172592_j32658931319165_1_alg».proof.Proof.Payloads
import proofs.«172592_j32658931319165_1_alg».proof.Proof.AccValue
import proofs.«172592_j32658931319165_1_alg».proof.Proof.Spec
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The whole result array as one function of its index: entry (r, o) is the node update of row r. -/
private abbrev outArr (adj : Cert.Spec.Mat 16384 16384) (msgs : Cert.Spec.Mat 16384 64) (x : Cert.Spec.Mat 16384 4)
    (U1x : Cert.Spec.Mat 4 64) (U1a : Cert.Spec.Mat 64 64) (c1 : Cert.Spec.Row 64) (U2 : Cert.Spec.Mat 64 64)
    (c2 : Cert.Spec.Row 64) (Wo : Cert.Spec.Mat 64 2) (bo : Cert.Spec.Row 2) : S16384x2.Idx → EReal :=
  fun i => Cert.Spec.outSplitAt adj msgs x U1x U1a c1 U2 c2 Wo bo ⟨(i 0).val, (i 0).isLt⟩ ⟨(i 1).val, (i 1).isLt⟩

/-- The block indices of the output window and of the nine input windows the update reads, at each of the 64 grid
    points: the node features and the result move with the row block t / 8, the seven weight arrays stay at their one
    block. -/
private theorem index_facts : ∀ t : Fin cfg1.N,
    win1_10.index t (0 : Fin 2) = t.val / 8 ∧ win1_10.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0 :=
  (by decide +kernel : ∀ t : Fin grid1.N, _)

/-- The stored block's entry (p, o) is the node update of row r, once the accumulator's row p holds the aggregated
    messages of row r and the loaded blocks read the arrays where row r says. -/
private theorem stored_entry (adj : Cert.Spec.Mat 16384 16384) (msgs : Cert.Spec.Mat 16384 64) (x : Cert.Spec.Mat 16384 4)
    (U1x : Cert.Spec.Mat 4 64) (U1a : Cert.Spec.Mat 64 64) (c1 : Cert.Spec.Row 64) (U2 : Cert.Spec.Mat 64 64)
    (c2 : Cert.Spec.Row 64) (Wo : Cert.Spec.Mat 64 2) (bo : Cert.Spec.Row 2)
    (acc : Vec Ideal S2048x64 .f32) (x2 : Vec Ideal S2048x4 .f32) (x3 : Vec Ideal S4x64 .f32) (x4 : Vec Ideal S64x64 .f32)
    (x5 : Vec Ideal S64 .f32) (x6 : Vec Ideal S64x64 .f32) (x7 : Vec Ideal S64 .f32) (x8 : Vec Ideal S64x2 .f32) (x9 : Vec Ideal S2 .f32) (r : Fin 16384) (p : Fin 2048) (o : Fin 2)
    (hacc : ∀ b : Fin 64, acc (ix2 p b) = Cert.Spec.aggAt adj msgs r b)
    (h2 : ∀ a : Fin 4, x2 (ix2 p a) = x (ix2 r a))
    (h3 : ∀ (a : Fin 4) (j : Fin 64), x3 (ix2 a j) = U1x (ix2 a j))
    (h4 : ∀ (b : Fin 64) (j : Fin 64), x4 (ix2 b j) = U1a (ix2 b j))
    (h5 : ∀ j : Fin 64, x5 (ix1 j) = c1 (ix1 j))
    (h6 : ∀ (j : Fin 64) (k : Fin 64), x6 (ix2 j k) = U2 (ix2 j k))
    (h7 : ∀ k : Fin 64, x7 (ix1 k) = c2 (ix1 k))
    (h8 : ∀ (k : Fin 64) (o' : Fin 2), x8 (ix2 k o') = Wo (ix2 k o'))
    (h9 : ∀ o' : Fin 2, x9 (ix1 o') = bo (ix1 o')) :
    k1_pay3 (F := Ideal) acc x2 x3 x4 x5 x6 x7 x8 x9 (ix2 p o) = Cert.Spec.outSplitAt adj msgs x U1x U1a c1 U2 c2 Wo bo r o := by
  refine (Cert.KernelIdeal.Pay.upd_payload acc x2 x3 x4 x5 x6 x7 x8 x9 p o).trans ?_
  unfold Cert.Spec.outSplitAt Cert.Spec.headAt Cert.Spec.updSplitAt
  refine congrArg₂ (· + ·) (Finset.sum_congr rfl fun k _ => ?_) (h9 o)
  refine congrArg₂ (· * ·) (congrArg Ideal.tanh (congrArg₂ (· + ·) (Finset.sum_congr rfl fun j _ => ?_) (h7 k))) (h8 k o)
  refine congrArg₂ (· * ·) (congrArg Ideal.tanh (congrArg₂ (· + ·) (congrArg₂ (· + ·)
    (Finset.sum_congr rfl fun a _ => ?_) (Finset.sum_congr rfl fun b _ => ?_)) (h5 j))) (h6 j k)
  · exact congrArg₂ (· * ·) (h2 a) (h3 a j)
  · exact congrArg₂ (· * ·) (hacc b) (h4 b j)

/-- The same at an index of the block and an index of the array that sit T blocks of 2048 rows apart. -/
private theorem stored_at (adj : Cert.Spec.Mat 16384 16384) (msgs : Cert.Spec.Mat 16384 64) (x : Cert.Spec.Mat 16384 4)
    (U1x : Cert.Spec.Mat 4 64) (U1a : Cert.Spec.Mat 64 64) (c1 : Cert.Spec.Row 64) (U2 : Cert.Spec.Mat 64 64)
    (c2 : Cert.Spec.Row 64) (Wo : Cert.Spec.Mat 64 2) (bo : Cert.Spec.Row 2)
    (acc : Vec Ideal S2048x64 .f32) (x2 : Vec Ideal S2048x4 .f32) (x3 : Vec Ideal S4x64 .f32) (x4 : Vec Ideal S64x64 .f32)
    (x5 : Vec Ideal S64 .f32) (x6 : Vec Ideal S64x64 .f32) (x7 : Vec Ideal S64 .f32) (x8 : Vec Ideal S64x2 .f32) (x9 : Vec Ideal S2 .f32) (T : Nat) (hT : T < 8)
    (hacc : ∀ (p : Fin 2048) (b : Fin 64), acc (ix2 p b) = Cert.Spec.aggAt adj msgs (⟨2048 * T + p.val, by omega⟩ : Fin 16384) b)
    (h2 : ∀ (p : Fin 2048) (a : Fin 4), x2 (ix2 p a) = x (ix2 (⟨2048 * T + p.val, by omega⟩ : Fin 16384) a))
    (h3 : ∀ (a : Fin 4) (j : Fin 64), x3 (ix2 a j) = U1x (ix2 a j))
    (h4 : ∀ (b : Fin 64) (j : Fin 64), x4 (ix2 b j) = U1a (ix2 b j))
    (h5 : ∀ j : Fin 64, x5 (ix1 j) = c1 (ix1 j))
    (h6 : ∀ (j : Fin 64) (k : Fin 64), x6 (ix2 j k) = U2 (ix2 j k))
    (h7 : ∀ k : Fin 64, x7 (ix1 k) = c2 (ix1 k))
    (h8 : ∀ (k : Fin 64) (o' : Fin 2), x8 (ix2 k o') = Wo (ix2 k o'))
    (h9 : ∀ o' : Fin 2, x9 (ix1 o') = bo (ix1 o'))
    (y : S2048x2.Idx) (i : S16384x2.Idx)
    (hi0 : (i 0).val = 2048 * T + (y 0).val) (hi1 : (i 1).val = (y 1).val) :
    k1_pay3 (F := Ideal) acc x2 x3 x4 x5 x6 x7 x8 x9 y = outArr adj msgs x U1x U1a c1 U2 c2 Wo bo i := by
  have hy0 : (y 0).val < 2048 := idx2_lt0 y
  have hy1 : (y 1).val < 2 := idx2_lt1 y
  have ey : y = ix2 (⟨(y 0).val, hy0⟩ : Fin 2048) (⟨(y 1).val, hy1⟩ : Fin 2) :=
    funext fun a => match a with | ⟨0, _⟩ => rfl | ⟨1, _⟩ => rfl
  have er : (⟨(i 0).val, (i 0).isLt⟩ : Fin 16384) = ⟨2048 * T + (y 0).val, by omega⟩ := Fin.ext hi0
  have eo : (⟨(i 1).val, (i 1).isLt⟩ : Fin 2) = ⟨(y 1).val, hy1⟩ := Fin.ext hi1
  show k1_pay3 (F := Ideal) acc x2 x3 x4 x5 x6 x7 x8 x9 y
    = Cert.Spec.outSplitAt adj msgs x U1x U1a c1 U2 c2 Wo bo ⟨(i 0).val, (i 0).isLt⟩ ⟨(i 1).val, (i 1).isLt⟩
  rw [er, eo]
  refine (congrArg (k1_pay3 (F := Ideal) acc x2 x3 x4 x5 x6 x7 x8 x9) ey).trans ?_
  exact stored_entry adj msgs x U1x U1a c1 U2 c2 Wo bo acc x2 x3 x4 x5 x6 x7 x8 x9 _ _ _ (fun b => hacc _ b) (fun a => h2 _ a) h3 h4 h5 h6 h7 h8 h9

/-- At a row's last column block the stored block is the node update of the accumulator as that point leaves it and of
    the point's other blocks. -/
private theorem stored_block (c : Dev nD) (t : Fin cfg1.N) (h7 : t.val % 8 = 7) :
    (outsAt1 (F := Ideal) V c t.val t.isLt).1
      = k1_pay3 (F := Ideal) (outsAt1 (F := Ideal) V c t.val t.isLt).2 (iblk1 V c 2 t) (iblk1 V c 3 t) (iblk1 V c 4 t) (iblk1 V c 5 t) (iblk1 V c 6 t) (iblk1 V c 7 t) (iblk1 V c 8 t) (iblk1 V c 9 t) := by
  have h0 : ¬t.val % 8 = 0 := by omega
  rw [outsAt1_C (F := Ideal) V c t h0 h7]
  dsimp only
  rw [out1_C_10_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2]

/-- At point t the block of node features reads the array t / 8 blocks of 2048 rows down. -/
private theorem feat_block (c : Dev nD) (t : Fin cfg1.N) (p : Fin 2048) (a : Fin 4) :
    (iblk1 (F := Ideal) V c 2 t : S2048x4.Idx → EReal) (ix2 p a)
      = (V c main_arg0 : S16384x4.Idx → EReal)
          (ix2 (⟨2048 * (t.val / 8) + p.val, by have ht := t.isLt; have hN : cfg1.N = 64 := N_1; omega⟩ : Fin 16384) a) := by
  obtain ⟨e10_0, e10_1, e2_0, e2_1, e3_0, e3_1, e4_0, e4_1, e5_0, e6_0, e6_1, e7_0, e8_0, e8_1, e9_0⟩ := index_facts t
  show V c main_arg0 (((cfg1.win 2).blk t).view.emb (ix2 p a)) = V c main_arg0 _
  refine congrArg (V c main_arg0) ?_
  funext ax; apply Fin.ext
  match ax with
  | ⟨0, _⟩ => show win1_2.index t (0 : Fin 2) * 2048 + 1 * p.val = 2048 * (t.val / 8) + p.val; omega
  | ⟨1, _⟩ => show win1_2.index t (1 : Fin 2) * 4 + 1 * a.val = a.val; omega

/-- The block of the update matrix's first four rows is the matrix. -/
private theorem u1x_block (c : Dev nD) (t : Fin cfg1.N) (a : Fin 4) (b : Fin 64) :
    (iblk1 (F := Ideal) V c 3 t : S4x64.Idx → EReal) (ix2 a b) = (V c main_v0 : S4x64.Idx → EReal) (ix2 a b) := by
  obtain ⟨e10_0, e10_1, e2_0, e2_1, e3_0, e3_1, e4_0, e4_1, e5_0, e6_0, e6_1, e7_0, e8_0, e8_1, e9_0⟩ := index_facts t
  show V c main_v0 (((cfg1.win 3).blk t).view.emb (ix2 a b)) = V c main_v0 _
  refine congrArg (V c main_v0) ?_
  funext ax; apply Fin.ext
  match ax with
  | ⟨0, _⟩ => show win1_3.index t (0 : Fin 2) * 4 + 1 * a.val = a.val; omega
  | ⟨1, _⟩ => show win1_3.index t (1 : Fin 2) * 64 + 1 * b.val = b.val; omega

/-- The block of the update matrix's last sixty-four rows is the matrix. -/
private theorem u1a_block (c : Dev nD) (t : Fin cfg1.N) (a : Fin 64) (b : Fin 64) :
    (iblk1 (F := Ideal) V c 4 t : S64x64.Idx → EReal) (ix2 a b) = (V c main_v1 : S64x64.Idx → EReal) (ix2 a b) := by
  obtain ⟨e10_0, e10_1, e2_0, e2_1, e3_0, e3_1, e4_0, e4_1, e5_0, e6_0, e6_1, e7_0, e8_0, e8_1, e9_0⟩ := index_facts t
  show V c main_v1 (((cfg1.win 4).blk t).view.emb (ix2 a b)) = V c main_v1 _
  refine congrArg (V c main_v1) ?_
  funext ax; apply Fin.ext
  match ax with
  | ⟨0, _⟩ => show win1_4.index t (0 : Fin 2) * 64 + 1 * a.val = a.val; omega
  | ⟨1, _⟩ => show win1_4.index t (1 : Fin 2) * 64 + 1 * b.val = b.val; omega

/-- The first update bias row's block is the row. -/
private theorem c1_block (c : Dev nD) (t : Fin cfg1.N) (a : Fin 64) :
    (iblk1 (F := Ideal) V c 5 t : S64.Idx → EReal) (ix1 a) = (V c main_arg7 : S64.Idx → EReal) (ix1 a) := by
  obtain ⟨e10_0, e10_1, e2_0, e2_1, e3_0, e3_1, e4_0, e4_1, e5_0, e6_0, e6_1, e7_0, e8_0, e8_1, e9_0⟩ := index_facts t
  show V c main_arg7 (((cfg1.win 5).blk t).view.emb (ix1 a)) = V c main_arg7 _
  refine congrArg (V c main_arg7) ?_
  funext ax; apply Fin.ext
  match ax with
  | ⟨0, _⟩ => show win1_5.index t (0 : Fin 1) * 64 + 1 * a.val = a.val; omega

/-- The second update matrix's block is the matrix. -/
private theorem u2_block (c : Dev nD) (t : Fin cfg1.N) (a : Fin 64) (b : Fin 64) :
    (iblk1 (F := Ideal) V c 6 t : S64x64.Idx → EReal) (ix2 a b) = (V c main_arg8 : S64x64.Idx → EReal) (ix2 a b) := by
  obtain ⟨e10_0, e10_1, e2_0, e2_1, e3_0, e3_1, e4_0, e4_1, e5_0, e6_0, e6_1, e7_0, e8_0, e8_1, e9_0⟩ := index_facts t
  show V c main_arg8 (((cfg1.win 6).blk t).view.emb (ix2 a b)) = V c main_arg8 _
  refine congrArg (V c main_arg8) ?_
  funext ax; apply Fin.ext
  match ax with
  | ⟨0, _⟩ => show win1_6.index t (0 : Fin 2) * 64 + 1 * a.val = a.val; omega
  | ⟨1, _⟩ => show win1_6.index t (1 : Fin 2) * 64 + 1 * b.val = b.val; omega

/-- The second update bias row's block is the row. -/
private theorem c2_block (c : Dev nD) (t : Fin cfg1.N) (a : Fin 64) :
    (iblk1 (F := Ideal) V c 7 t : S64.Idx → EReal) (ix1 a) = (V c main_arg9 : S64.Idx → EReal) (ix1 a) := by
  obtain ⟨e10_0, e10_1, e2_0, e2_1, e3_0, e3_1, e4_0, e4_1, e5_0, e6_0, e6_1, e7_0, e8_0, e8_1, e9_0⟩ := index_facts t
  show V c main_arg9 (((cfg1.win 7).blk t).view.emb (ix1 a)) = V c main_arg9 _
  refine congrArg (V c main_arg9) ?_
  funext ax; apply Fin.ext
  match ax with
  | ⟨0, _⟩ => show win1_7.index t (0 : Fin 1) * 64 + 1 * a.val = a.val; omega

/-- The output matrix's block is the matrix. -/
private theorem wo_block (c : Dev nD) (t : Fin cfg1.N) (a : Fin 64) (b : Fin 2) :
    (iblk1 (F := Ideal) V c 8 t : S64x2.Idx → EReal) (ix2 a b) = (V c main_arg10 : S64x2.Idx → EReal) (ix2 a b) := by
  obtain ⟨e10_0, e10_1, e2_0, e2_1, e3_0, e3_1, e4_0, e4_1, e5_0, e6_0, e6_1, e7_0, e8_0, e8_1, e9_0⟩ := index_facts t
  show V c main_arg10 (((cfg1.win 8).blk t).view.emb (ix2 a b)) = V c main_arg10 _
  refine congrArg (V c main_arg10) ?_
  funext ax; apply Fin.ext
  match ax with
  | ⟨0, _⟩ => show win1_8.index t (0 : Fin 2) * 64 + 1 * a.val = a.val; omega
  | ⟨1, _⟩ => show win1_8.index t (1 : Fin 2) * 2 + 1 * b.val = b.val; omega

/-- The output bias row's block is the row. -/
private theorem bo_block (c : Dev nD) (t : Fin cfg1.N) (a : Fin 2) :
    (iblk1 (F := Ideal) V c 9 t : S2.Idx → EReal) (ix1 a) = (V c main_arg11 : S2.Idx → EReal) (ix1 a) := by
  obtain ⟨e10_0, e10_1, e2_0, e2_1, e3_0, e3_1, e4_0, e4_1, e5_0, e6_0, e6_1, e7_0, e8_0, e8_1, e9_0⟩ := index_facts t
  show V c main_arg11 (((cfg1.win 9).blk t).view.emb (ix1 a)) = V c main_arg11 _
  refine congrArg (V c main_arg11) ?_
  funext ax; apply Fin.ext
  match ax with
  | ⟨0, _⟩ => show win1_9.index t (0 : Fin 1) * 2 + 1 * a.val = a.val; omega

/-- What a row's last point writes back is its block of the result array. -/
private theorem flushed_out (c : Dev nD) (t : Fin cfg1.N) (hf : (cfg1.win 10).flush t = true) :
    (dat1 (F := Ideal) V c).flushed 10 t = ((cfg1.win 10).blk t).view.read (Elt Ideal)
      (outArr (V c main_arg1) (V c main_v2) (V c main_arg0) (V c main_v0) (V c main_v1) (V c main_arg7) (V c main_arg8) (V c main_arg9) (V c main_arg10) (V c main_arg11)) := by
  have h7 : t.val % 8 = 7 := (flush1_10 t).mp hf
  have hN : cfg1.N = 64 := N_1
  have ht : t.val < 64 := by have := t.isLt; omega
  obtain ⟨e10_0, e10_1, e2_0, e2_1, e3_0, e3_1, e4_0, e4_1, e5_0, e6_0, e6_1, e7_0, e8_0, e8_1, e9_0⟩ := index_facts t
  show (cfg1.win 10).cut (grid1.coords t) ((dat1 (F := Ideal) V c).after 10 t) = _
  rw [after1_10, stored_block V c t h7]
  funext y
  show k1_pay3 (F := Ideal) (outsAt1 (F := Ideal) V c t.val t.isLt).2 (iblk1 V c 2 t) (iblk1 V c 3 t) (iblk1 V c 4 t) (iblk1 V c 5 t) (iblk1 V c 6 t) (iblk1 V c 7 t) (iblk1 V c 8 t) (iblk1 V c 9 t) y
    = outArr (V c main_arg1) (V c main_v2) (V c main_arg0) (V c main_v0) (V c main_v1) (V c main_arg7) (V c main_arg8) (V c main_arg9) (V c main_arg10) (V c main_arg11) (((cfg1.win 10).blk t).view.emb y)
  refine stored_at (V c main_arg1) (V c main_v2) (V c main_arg0) (V c main_v0) (V c main_v1) (V c main_arg7) (V c main_arg8) (V c main_arg9) (V c main_arg10) (V c main_arg11)
    (outsAt1 (F := Ideal) V c t.val t.isLt).2 (iblk1 V c 2 t) (iblk1 V c 3 t) (iblk1 V c 4 t) (iblk1 V c 5 t) (iblk1 V c 6 t) (iblk1 V c 7 t) (iblk1 V c 8 t) (iblk1 V c 9 t) (t.val / 8) (by omega)
    (fun p b => acc_last V c t h7 p b) (fun p a => feat_block V c t p a)
    (fun a j => u1x_block V c t a j) (fun b j => u1a_block V c t b j) (fun j => c1_block V c t j)
    (fun j k => u2_block V c t j k) (fun k => c2_block V c t k) (fun k o' => wo_block V c t k o') (fun o' => bo_block V c t o')
    y (((cfg1.win 10).blk t).view.emb y) ?_ ?_
  · show win1_10.index t (0 : Fin 2) * 2048 + 1 * (y 0).val = 2048 * (t.val / 8) + (y 0).val; omega
  · show win1_10.index t (1 : Fin 2) * 2 + 1 * (y 1).val = (y 1).val; omega

/-- An index of the array is in point t's block iff each coordinate is in the block's range on its axis. -/
private theorem mem_block (t : Fin cfg1.N) (i : S16384x2.Idx) :
    i ∈ ((cfg1.win 10).blk t).view.set ↔ ∀ a : Fin 2, win1_10.index t a * S2048x2.size a ≤ (i a).val
      ∧ (i a).val < win1_10.index t a * S2048x2.size a + S2048x2.size a := by
  show i ∈ ((View.whole main_v3).slice (win1_10.rect t)).set ↔ _
  rw [View.set_slice_whole, Rect.mem_set_unit]
  exact Iff.rfl

/-- Row r of the array lies in the block of row block r / 2048, which that row block's last point writes back. -/
private theorem covered (i : S16384x2.Idx) :
    ∃ t : Fin cfg1.N, (cfg1.win 10).flush t = true ∧ i ∈ ((cfg1.win 10).blk t).view.set := by
  have hi0 : (i 0).val < 16384 := idx2_lt0 i
  have hi1 : (i 1).val < 2 := idx2_lt1 i
  have hN : 8 * ((i 0).val / 2048) + 7 < cfg1.N := by show 8 * ((i 0).val / 2048) + 7 < 64; omega
  obtain ⟨e0, e1, -⟩ := index_facts ⟨8 * ((i 0).val / 2048) + 7, hN⟩
  have e0' : win1_10.index ⟨8 * ((i 0).val / 2048) + 7, hN⟩ (0 : Fin 2) = (8 * ((i 0).val / 2048) + 7) / 8 := e0
  refine ⟨⟨8 * ((i 0).val / 2048) + 7, hN⟩, (flush1_10 _).mpr (by show (8 * ((i 0).val / 2048) + 7) % 8 = 7; omega), ?_⟩
  rw [mem_block]
  intro a
  match a with
  | ⟨0, _⟩ =>
    show win1_10.index ⟨8 * ((i 0).val / 2048) + 7, hN⟩ (0 : Fin 2) * 2048 ≤ (i 0).val
      ∧ (i 0).val < win1_10.index ⟨8 * ((i 0).val / 2048) + 7, hN⟩ (0 : Fin 2) * 2048 + 2048
    omega
  | ⟨1, _⟩ =>
    show win1_10.index ⟨8 * ((i 0).val / 2048) + 7, hN⟩ (1 : Fin 2) * 2 ≤ (i 1).val
      ∧ (i 1).val < win1_10.index ⟨8 * ((i 0).val / 2048) + 7, hN⟩ (1 : Fin 2) * 2 + 2
    omega

/-- After the 64 points the result array is the node update applied row by row. -/
private theorem out_array (c : Dev nD) :
    (dat1 (F := Ideal) V c).arrAt 10 cfg1.N = outArr (V c main_arg1) (V c main_v2) (V c main_arg0) (V c main_v0) (V c main_v1) (V c main_arg7) (V c main_arg8) (V c main_arg9) (V c main_arg10) (V c main_arg11) :=
  (dat1 (F := Ideal) V c).arrAt_eq_of_cover 10
    (outArr (V c main_arg1) (V c main_v2) (V c main_arg0) (V c main_v0) (V c main_v1) (V c main_arg7) (V c main_arg8) (V c main_arg9) (V c main_arg10) (V c main_arg11))
    (fun t hf => flushed_out V c t hf) covered

theorem out_value (c : Dev nD) (r : Fin 16384) (o : Fin 2) :
    ((dat1 (F := Ideal) V c).arrAt 10 cfg1.N : S16384x2.Idx → EReal) (ix2 r o)
      = Cert.Spec.outSplitAt (V c main_arg1) (V c main_v2) (V c main_arg0) (V c main_v0) (V c main_v1) (V c main_arg7)
          (V c main_arg8) (V c main_arg9) (V c main_arg10) (V c main_arg11) r o :=
  congrFun (out_array V c) (ix2 r o)

end Cert.KernelIdeal.Fr

end
-- ==== Proof.SpecLaw.lean ====
/-
  The 68-term sum over the concatenated row [x[r] | agg[r]] against the update matrix is the sum of the two partial
  products — x[r] against the matrix's first four rows, agg[r] against its last sixty-four —, so the result computed
  through the concatenation is the result computed from the two parts. Only commutativity and associativity of the
  extended reals' sum are used: no entry needs to be finite.
-/
import proofs.«172592_j32658931319165_1_alg».proof.Proof.Spec

noncomputable section

open scoped BigOperators

namespace Cert.Spec

open Idealize.ShloMosaic Idealize.ShloMosaic.ValueIdx

/-- A sum over 68 positions is the sum over the first four plus the sum over the last sixty-four. -/
private theorem sum68_split (f : Fin 68 → EReal) :
    ∑ k : Fin 68, f k
      = (∑ j : Fin 4, f (⟨j.val, by omega⟩ : Fin 68)) + ∑ k : Fin 64, f (⟨k.val + 4, by omega⟩ : Fin 68) := by
  refine (Fin.sum_univ_add (a := 4) (b := 64) f).trans ?_
  refine congrArg₂ (· + ·) ?_ ?_
  · exact Finset.sum_congr rfl (fun j _ => congrArg f (Fin.ext rfl))
  · exact Finset.sum_congr rfl (fun k _ => congrArg f (Fin.ext (Nat.add_comm 4 k.val)))

/-- The concatenated row at one of its first four positions is the feature row. -/
private theorem catAt_lo (x : Mat 16384 4) (agg : Fin 16384 → Fin 64 → EReal) (r : Fin 16384) (j : Fin 4) :
    catAt x agg r (⟨j.val, by omega⟩ : Fin 68) = x (ix2 r j) := by
  unfold catAt
  exact dif_pos j.isLt

/-- The concatenated row at one of its last sixty-four positions is the aggregated row. -/
private theorem catAt_hi (x : Mat 16384 4) (agg : Fin 16384 → Fin 64 → EReal) (r : Fin 16384) (k : Fin 64) :
    catAt x agg r (⟨k.val + 4, by omega⟩ : Fin 68) = agg r k := by
  unfold catAt
  have h : ¬ (k.val + 4 < 4) := by omega
  refine (dif_neg h).trans ?_
  exact congrArg (agg r) (Fin.ext (show k.val + 4 - 4 = k.val by omega))

/-- The first hidden layer of the update through the concatenated row is the one through the two partial products. -/
private theorem updCatAt_eq_updSplitAt (x : Mat 16384 4) (agg : Fin 16384 → Fin 64 → EReal)
    (U1 : Mat 68 64) (c1 : Row 64) (U1x : Mat 4 64) (U1a : Mat 64 64)
    (hx : ∀ (j : Fin 4) (q : Fin 64), U1x (ix2 j q) = U1 (ix2 (⟨j.val, by omega⟩ : Fin 68) q))
    (ha : ∀ (k : Fin 64) (q : Fin 64), U1a (ix2 k q) = U1 (ix2 (⟨k.val + 4, by omega⟩ : Fin 68) q))
    (r : Fin 16384) (q : Fin 64) :
    updCatAt x agg U1 c1 r q = updSplitAt x agg U1x U1a c1 r q := by
  unfold updCatAt updSplitAt
  refine congrArg (fun t => Ideal.tanh (t + c1 (ix1 q))) ?_
  refine (sum68_split (fun k => catAt x agg r k * U1 (ix2 k q))).trans ?_
  refine congrArg₂ (· + ·) ?_ ?_
  · refine Finset.sum_congr rfl (fun j _ => ?_)
    exact congrArg₂ (· * ·) (catAt_lo x agg r j) (hx j q).symm
  · refine Finset.sum_congr rfl (fun k _ => ?_)
    exact congrArg₂ (· * ·) (catAt_hi x agg r k) (ha k q).symm

theorem outAt_eq_outSplitAt (x : Mat 16384 4) (adj : Mat 16384 16384) (W1 : Mat 4 64) (b1 : Row 64) (W2 : Mat 64 64) (b2 : Row 64)
    (U1 : Mat 68 64) (c1 : Row 64) (U2 : Mat 64 64) (c2 : Row 64) (Wo : Mat 64 2) (bo : Row 2)
    (msgs : Mat 16384 64) (U1x : Mat 4 64) (U1a : Mat 64 64)
    (hm : ∀ (k : Fin 16384) (q : Fin 64), msgs (ix2 k q) = msgAt x W1 b1 W2 b2 k q)
    (hx : ∀ (j : Fin 4) (q : Fin 64), U1x (ix2 j q) = U1 (ix2 (⟨j.val, by omega⟩ : Fin 68) q))
    (ha : ∀ (k : Fin 64) (q : Fin 64), U1a (ix2 k q) = U1 (ix2 (⟨k.val + 4, by omega⟩ : Fin 68) q))
    (r : Fin 16384) (o : Fin 2) :
    outAt x adj W1 b1 W2 b2 U1 c1 U2 c2 Wo bo r o = outSplitAt adj msgs x U1x U1a c1 U2 c2 Wo bo r o := by
  unfold outAt outSplitAt
  have hagg : (fun (r' : Fin 16384) (q' : Fin 64) => ∑ k : Fin 16384, adj (ix2 r' k) * msgAt x W1 b1 W2 b2 k q')
      = aggAt adj msgs := by
    funext r' q'
    unfold aggAt
    exact Finset.sum_congr rfl (fun k _ => congrArg (fun t => adj (ix2 r' k) * t) (hm k q').symm)
  have hupd : updCatAt x (fun (r' : Fin 16384) (q' : Fin 64) => ∑ k : Fin 16384, adj (ix2 r' k) * msgAt x W1 b1 W2 b2 k q') U1 c1
      = updSplitAt x (aggAt adj msgs) U1x U1a c1 := by
    funext r' q'
    refine (congrArg (fun g => updCatAt x g U1 c1 r' q') hagg).trans ?_
    exact updCatAt_eq_updSplitAt x (aggAt adj msgs) U1 c1 U1x U1a hx ha r' q'
  exact congrArg (fun h1 => headAt h1 U2 c2 Wo bo r o) hupd

end Cert.Spec

end
-- ==== Proof.RefValue.lean ====
/-
  The reference program's result, read at node r and output o, is the specification's entry: each host operation is
  read at an index (a matrix product as the sum over its contracted axis, a bias as the broadcast row's entry, the
  concatenation as a choice between its two operands by the position on the joined axis).
-/
import proofs.«172592_j32658931319165_1_alg».proof.Proof.Spec
import proofs.«172592_j32658931319165_1_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-! ### The index functions of the operations, at an index given by its coordinates -/

section Indices

/-- Two indices of two axes with the same coordinates are equal. -/
local macro "idx2" : tactic => `(tactic| (funext a; match a with | ⟨0, _⟩ => rfl | ⟨1, _⟩ => rfl))
/-- Two indices of one axis with the same coordinate are equal. -/
local macro "idx1" : tactic => `(tactic| (funext a; match a with | ⟨0, _⟩ => rfl))

private theorem l0 (r : Fin 16384) (q : Fin 64) (k : Fin 4) : lidx_main_v0 (ix2 r q) k = ix2 r k := by idx2
private theorem r0 (r : Fin 16384) (q : Fin 64) (k : Fin 4) : ridx_main_v0 (ix2 r q) k = ix2 k q := by idx2
private theorem l5 (r : Fin 16384) (q : Fin 64) (k : Fin 64) : lidx_main_v5 (ix2 r q) k = ix2 r k := by idx2
private theorem r5 (r : Fin 16384) (q : Fin 64) (k : Fin 64) : ridx_main_v5 (ix2 r q) k = ix2 k q := by idx2
private theorem l9 (r : Fin 16384) (q : Fin 64) (k : Fin 16384) : lidx_main_v9 (ix2 r q) k = ix2 r k := by idx2
private theorem r9 (r : Fin 16384) (q : Fin 64) (k : Fin 16384) : ridx_main_v9 (ix2 r q) k = ix2 k q := by idx2
private theorem l11 (r : Fin 16384) (q : Fin 64) (k : Fin 68) : lidx_main_v11 (ix2 r q) k = ix2 r k := by idx2
private theorem r11 (r : Fin 16384) (q : Fin 64) (k : Fin 68) : ridx_main_v11 (ix2 r q) k = ix2 k q := by idx2
private theorem l16 (r : Fin 16384) (q : Fin 64) (k : Fin 64) : lidx_main_v16 (ix2 r q) k = ix2 r k := by idx2
private theorem r16 (r : Fin 16384) (q : Fin 64) (k : Fin 64) : ridx_main_v16 (ix2 r q) k = ix2 k q := by idx2
private theorem l21 (r : Fin 16384) (o : Fin 2) (k : Fin 64) : lidx_main_v21 (ix2 r o) k = ix2 r k := by idx2
private theorem r21 (r : Fin 16384) (o : Fin 2) (k : Fin 64) : ridx_main_v21 (ix2 r o) k = ix2 k o := by idx2

private theorem b2 (r : Fin 16384) (q : Fin 64) : idx_main_v1 (idx_main_v2 (ix2 r q)) = ix1 q := by idx1
private theorem b7 (r : Fin 16384) (q : Fin 64) : idx_main_v6 (idx_main_v7 (ix2 r q)) = ix1 q := by idx1
private theorem b13 (r : Fin 16384) (q : Fin 64) : idx_main_v12 (idx_main_v13 (ix2 r q)) = ix1 q := by idx1
private theorem b18 (r : Fin 16384) (q : Fin 64) : idx_main_v17 (idx_main_v18 (ix2 r q)) = ix1 q := by idx1
private theorem b23 (r : Fin 16384) (o : Fin 2) : idx_main_v22 (idx_main_v23 (ix2 r o)) = ix1 o := by idx1

end Indices

section Stages

variable (x0 : (⟨S16384x4, .f32⟩ : BufTy).Contents (Elt Ideal)) (x1 : (⟨S16384x16384, .f32⟩ : BufTy).Contents (Elt Ideal))
    (x2 : (⟨S4x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S68x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x2, .f32⟩ : BufTy).Contents (Elt Ideal)) (x11 : (⟨S2, .f32⟩ : BufTy).Contents (Elt Ideal))

/-! ### The bias rows, broadcast down the nodes -/

private theorem bias2 (r : Fin 16384) (q : Fin 64) : val_main_v2 (F := Ideal) x3 (ix2 r q) = x3 (ix1 q) := by
  rw [val_main_v2_apply, val_main_v1_apply, b2]
private theorem bias7 (r : Fin 16384) (q : Fin 64) : val_main_v7 (F := Ideal) x5 (ix2 r q) = x5 (ix1 q) := by
  rw [val_main_v7_apply, val_main_v6_apply, b7]
private theorem bias13 (r : Fin 16384) (q : Fin 64) : val_main_v13 (F := Ideal) x7 (ix2 r q) = x7 (ix1 q) := by
  rw [val_main_v13_apply, val_main_v12_apply, b13]
private theorem bias18 (r : Fin 16384) (q : Fin 64) : val_main_v18 (F := Ideal) x9 (ix2 r q) = x9 (ix1 q) := by
  rw [val_main_v18_apply, val_main_v17_apply, b18]
private theorem bias23 (r : Fin 16384) (o : Fin 2) : val_main_v23 (F := Ideal) x11 (ix2 r o) = x11 (ix1 o) := by
  rw [val_main_v23_apply, val_main_v22_apply, b23]

/-! ### The message network -/

/-- The hidden layer of the message network. -/
private theorem hid_eq (r : Fin 16384) (k : Fin 64) :
    val_main_v4 (F := Ideal) x0 x2 x3 (ix2 r k) = Cert.Spec.msgHidAt x0 x2 x3 r k := by
  rw [val_main_v4_apply, val_main_v3_apply, val_main_v0_apply, bias2]
  unfold Cert.Spec.msgHidAt
  simp only [l0, r0]
  rfl

/-- The message. -/
private theorem msg_eq (r : Fin 16384) (q : Fin 64) :
    val_main_v8 (F := Ideal) x0 x2 x3 x4 x5 (ix2 r q) = Cert.Spec.msgAt x0 x2 x3 x4 x5 r q := by
  rw [val_main_v8_apply, val_main_v5_apply, bias7]
  unfold Cert.Spec.msgAt
  simp only [l5, r5, hid_eq]
  rfl

/-- The aggregated message. -/
private theorem agg_eq (r : Fin 16384) (q : Fin 64) :
    val_main_v9 (F := Ideal) x0 x1 x2 x3 x4 x5 (ix2 r q)
      = ∑ k : Fin 16384, x1 (ix2 r k) * Cert.Spec.msgAt x0 x2 x3 x4 x5 k q := by
  rw [val_main_v9_apply]
  simp only [l9, r9, msg_eq]

end Stages

section Stages2

variable (x0 : (⟨S16384x4, .f32⟩ : BufTy).Contents (Elt Ideal)) (x1 : (⟨S16384x16384, .f32⟩ : BufTy).Contents (Elt Ideal))
    (x2 : (⟨S4x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S68x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x2, .f32⟩ : BufTy).Contents (Elt Ideal)) (x11 : (⟨S2, .f32⟩ : BufTy).Contents (Elt Ideal))

/-! ### The update network -/

/-- The concatenated row: below position 4 the node's features, from 4 on the aggregated message, 4 less. -/
private theorem cat_eq (r : Fin 16384) (k : Fin 68) :
    val_main_v10 (F := Ideal) x0 x1 x2 x3 x4 x5 (ix2 r k)
      = Cert.Spec.catAt x0 (fun r' q' => ∑ k : Fin 16384, x1 (ix2 r' k) * Cert.Spec.msgAt x0 x2 x3 x4 x5 k q') r k := by
  unfold val_main_v10 Cert.Spec.catAt
  by_cases h : k.val < 4
  · rw [dif_pos h]
    exact concatenate_pair_apply_left (t := S16384x68) (s₁ := S16384x4) (s₂ := S16384x64) (1 : Fin 2) _ _ _ _ rfl (ix2 r ⟨k.val, h⟩) (fun b => by
      match b with
      | ⟨0, _⟩ => rfl
      | ⟨1, _⟩ => rfl)
  · rw [dif_neg h]
    refine (concatenate_pair_apply_right (t := S16384x68) (s₁ := S16384x4) (s₂ := S16384x64) (1 : Fin 2) _ _ _ _ rfl rfl (ix2 r ⟨k.val - 4, by omega⟩) (fun b hb => by
      match b with
      | ⟨0, _⟩ => rfl
      | ⟨1, _⟩ => exact absurd rfl hb) ?_).trans (agg_eq x0 x1 x2 x3 x4 x5 r _)
    show (k.val - 4) + 4 = k.val
    omega

/-- The first hidden layer of the update network. -/
private theorem upd_eq (r : Fin 16384) (q : Fin 64) :
    val_main_v15 (F := Ideal) x0 x1 x2 x3 x4 x5 x6 x7 (ix2 r q)
      = Cert.Spec.updCatAt x0 (fun r' q' => ∑ k : Fin 16384, x1 (ix2 r' k) * Cert.Spec.msgAt x0 x2 x3 x4 x5 k q') x6 x7 r q := by
  rw [val_main_v15_apply, val_main_v14_apply, val_main_v11_apply, bias13]
  unfold Cert.Spec.updCatAt
  simp only [l11, r11, cat_eq]
  rfl

/-- The second hidden layer of the update network. -/
private theorem hid2_eq (r : Fin 16384) (k : Fin 64) :
    val_main_v20 (F := Ideal) x0 x1 x2 x3 x4 x5 x6 x7 x8 x9 (ix2 r k)
      = Ideal.tanh ((∑ j : Fin 64, Cert.Spec.updCatAt x0 (fun r' q' => ∑ k : Fin 16384, x1 (ix2 r' k) * Cert.Spec.msgAt x0 x2 x3 x4 x5 k q') x6 x7 r j
          * x8 (ix2 j k)) + x9 (ix1 k)) := by
  rw [val_main_v20_apply, val_main_v19_apply, val_main_v16_apply, bias18]
  simp only [l16, r16, upd_eq]
  rfl

end Stages2

theorem ref_value (x0 : (⟨S16384x4, .f32⟩ : BufTy).Contents (Elt Ideal)) (x1 : (⟨S16384x16384, .f32⟩ : BufTy).Contents (Elt Ideal))
    (x2 : (⟨S4x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S68x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x2, .f32⟩ : BufTy).Contents (Elt Ideal)) (x11 : (⟨S2, .f32⟩ : BufTy).Contents (Elt Ideal))
    (r : Fin 16384) (o : Fin 2) :
    val_main_v24 (F := Ideal) x0 x1 x2 x3 x4 x5 x6 x7 x8 x9 x10 x11 (ix2 r o)
      = Cert.Spec.outAt x0 x1 x2 x3 x4 x5 x6 x7 x8 x9 x10 x11 r o := by
  rw [val_main_v24_apply, val_main_v21_apply, bias23]
  unfold Cert.Spec.outAt Cert.Spec.headAt
  simp only [l21, r21, hid2_eq]
  rfl

end Cert.ReferenceIdeal.RefValue

end
-- ==== Proof.Claims.lean ====
/-
  The two idealized programs end with one result. The kernel program's result array is, entry by entry, the
  specification computed from the messages array and the two slices of the update matrix (the aggregation call's value),
  the messages array is the specification's messages (the message call's value), the slices are rows 0–3 and 4–67 of the
  update matrix; the reference's result is the specification computed through the concatenated row; and the two
  specifications agree. The frames are the runs with the results dropped.
-/
import proofs.«172592_j32658931319165_1_alg».proof.Defs
import proofs.«172592_j32658931319165_1_alg».proof.Proof.Run
import proofs.«172592_j32658931319165_1_alg».proof.Proof.BitsRun
import proofs.«172592_j32658931319165_1_alg».proof.Proof.MsgValue
import proofs.«172592_j32658931319165_1_alg».proof.Proof.OutValue
import proofs.«172592_j32658931319165_1_alg».proof.Proof.SpecLaw
import proofs.«172592_j32658931319165_1_alg».proof.Proof.RefValue
import proofs.«172592_j32658931319165_1_alg».proof.Proof.Gen.ReferenceIdeal.Run
import proofs.«172592_j32658931319165_1_alg».proof.Proof.Gen.ReferenceIdeal.Read
import proofs.«172592_j32658931319165_1_alg».proof.Proof.Gen.Kernel
import proofs.«172592_j32658931319165_1_alg».proof.Proof.Gen.KernelIdeal
import proofs.«172592_j32658931319165_1_alg».proof.Proof.Gen.ReferenceIdeal
import proofs.«172592_j32658931319165_1_alg».proof.Proof.Gen.Pre_finite_inputs
import Idealize.ShloMosaic.Lib.Pipeline.Value
import Idealize.ShloMosaic.Lib.StableHlo.Run

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Cert.Spec (Mat Row)

variable (m : (ℓ : Loc nD τ sig) → Buf (Elt Ideal) ℓ) (ρ : Dev nD → PrngReg)

/-- Argument 0 as launched. -/
abbrev a0 (c : Dev nD) : Mat 16384 4 := m ((c : Thread nD τ).loc main_arg0)
/-- Argument 1 as launched. -/
abbrev a1 (c : Dev nD) : Mat 16384 16384 := m ((c : Thread nD τ).loc main_arg1)
/-- Argument 2 as launched. -/
abbrev a2 (c : Dev nD) : Mat 4 64 := m ((c : Thread nD τ).loc main_arg2)
/-- Argument 3 as launched. -/
abbrev a3 (c : Dev nD) : Row 64 := m ((c : Thread nD τ).loc main_arg3)
/-- Argument 4 as launched. -/
abbrev a4 (c : Dev nD) : Mat 64 64 := m ((c : Thread nD τ).loc main_arg4)
/-- Argument 5 as launched. -/
abbrev a5 (c : Dev nD) : Row 64 := m ((c : Thread nD τ).loc main_arg5)
/-- Argument 6 as launched. -/
abbrev a6 (c : Dev nD) : Mat 68 64 := m ((c : Thread nD τ).loc main_arg6)
/-- Argument 7 as launched. -/
abbrev a7 (c : Dev nD) : Row 64 := m ((c : Thread nD τ).loc main_arg7)
/-- Argument 8 as launched. -/
abbrev a8 (c : Dev nD) : Mat 64 64 := m ((c : Thread nD τ).loc main_arg8)
/-- Argument 9 as launched. -/
abbrev a9 (c : Dev nD) : Row 64 := m ((c : Thread nD τ).loc main_arg9)
/-- Argument 10 as launched. -/
abbrev a10 (c : Dev nD) : Mat 64 2 := m ((c : Thread nD τ).loc main_arg10)
/-- Argument 11 as launched. -/
abbrev a11 (c : Dev nD) : Row 2 := m ((c : Thread nD τ).loc main_arg11)

/-- The first host slice: rows 0–3 of the update matrix. -/
theorem W1_main_v0 (c : Dev nD) :
    W1 m ρ c (Proc.devRef .tc main_v0) = extractStridedSlice S4x64 ![0, 0] (m ((c : Thread nD τ).loc main_arg6)) slices_S68x64_S4x64_0_0 := by
  show StableHlo.after hostOps0 _ (Proc.devRef .tc main_v0) = _
  after_results

/-- The second host slice: rows 4–67 of the update matrix. -/
theorem W1_main_v1 (c : Dev nD) :
    W1 m ρ c (Proc.devRef .tc main_v1) = extractStridedSlice S64x64 ![4, 0] (m ((c : Thread nD τ).loc main_arg6)) slices_S68x64_S64x64_4_0 := by
  show StableHlo.after hostOps0 _ (Proc.devRef .tc main_v1) = _
  after_results

theorem U1x_at (c : Dev nD) (j : Fin 4) (q : Fin 64) :
    (V2 m ρ c main_v0 : Mat 4 64) (ix2 j q) = a6 m c (ix2 (⟨j.val, by omega⟩ : Fin 68) q) := by
  refine (congrFun ((W2_of_ne m ρ c main_v0 (by decide)).trans (W1_main_v0 m ρ c)) (ix2 j q)).trans ?_
  exact extractStridedSlice_apply _ _ _ _ _ (fun a => by
    match a with
    | ⟨0, _⟩ => exact (Nat.zero_add _).symm
    | ⟨1, _⟩ => exact (Nat.zero_add _).symm)

theorem U1a_at (c : Dev nD) (k : Fin 64) (q : Fin 64) :
    (V2 m ρ c main_v1 : Mat 64 64) (ix2 k q) = a6 m c (ix2 (⟨k.val + 4, by omega⟩ : Fin 68) q) := by
  refine (congrFun ((W2_of_ne m ρ c main_v1 (by decide)).trans (W1_main_v1 m ρ c)) (ix2 k q)).trans ?_
  exact extractStridedSlice_apply _ _ _ _ _ (fun a => by
    match a with
    | ⟨0, _⟩ => exact Nat.add_comm _ _
    | ⟨1, _⟩ => exact (Nat.zero_add _).symm)

/-- The messages array after the first call. -/
theorem msgs_at (c : Dev nD) (k : Fin 16384) (q : Fin 64) :
    (V2 m ρ c main_v2 : Mat 16384 64) (ix2 k q) = Cert.Spec.msgAt (a0 m c) (a2 m c) (a3 m c) (a4 m c) (a5 m c) k q := by
  refine (congrFun (W2_arr m ρ c 5) (ix2 k q)).trans ?_
  refine (msg_value (V1 m ρ) c k q).trans ?_
  rw [V1_main_arg0 m ρ c, V1_main_arg2 m ρ c, V1_main_arg3 m ρ c, V1_main_arg4 m ρ c, V1_main_arg5 m ρ c]

/-- The kernel program's result, entry by entry. -/
theorem result_at (c : Dev nD) (r : Fin 16384) (o : Fin 2) :
    (W3 m ρ c (Proc.devRef .tc main_v3) : Mat 16384 2) (ix2 r o)
      = Cert.Spec.outAt (a0 m c) (a1 m c) (a2 m c) (a3 m c) (a4 m c) (a5 m c) (a6 m c) (a7 m c) (a8 m c) (a9 m c) (a10 m c) (a11 m c) r o := by
  refine (congrFun (W3_arr m ρ c 10) (ix2 r o)).trans ?_
  refine (out_value (V2 m ρ) c r o).trans ?_
  rw [V2_main_arg1 m ρ c, V2_main_arg0 m ρ c, V2_main_arg7 m ρ c, V2_main_arg8 m ρ c, V2_main_arg9 m ρ c, V2_main_arg10 m ρ c, V2_main_arg11 m ρ c]
  exact (Cert.Spec.outAt_eq_outSplitAt (a0 m c) (a1 m c) (a2 m c) (a3 m c) (a4 m c) (a5 m c) (a6 m c) (a7 m c) (a8 m c) (a9 m c) (a10 m c) (a11 m c)
    (V2 m ρ c main_v2) (V2 m ρ c main_v0) (V2 m ρ c main_v1) (msgs_at m ρ c) (U1x_at m ρ c) (U1a_at m ρ c) r o).symm

/-- The kernel program's run with its result named. -/
theorem value_run : θ_run defs (onTc (τ := τ) (main (F := Ideal))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c _ (mem_uc main_v3 (by decide)),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c)⟩) (run_all m ρ)

end Cert.KernelIdeal.Fr

namespace Cert.Proof.Claims

open Idealize.ShloMosaic Idealize.ShloMosaic.TcCoe Idealize.ShloMosaic.ValueIdx Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the twelve arguments, the two idealized programs end with equal results: entry by
    entry both are the specification's `outAt` of the arguments. -/
theorem algebraic : Cert.algebraic_KernelIdeal_ReferenceIdeal := by
  intro m ρ m' ρ' _ hagree
  refine ⟨fun c => Cert.KernelIdeal.Fr.W3 m ρ c (Proc.devRef .tc Cert.KernelIdeal.main_v3), Cert.KernelIdeal.Fr.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq]
  obtain ⟨e0, e1, e2, e3, e4, e5, e6, e7, e8, e9, e10, e11⟩ := hagree c
  rw [e0, e1, e2, e3, e4, e5, e6, e7, e8, e9, e10, e11]
  funext i
  obtain ⟨r, o, rfl⟩ : ∃ (r : Fin 16384) (o : Fin 2), i = ix2 r o := ⟨i 0, i 1, eq_ix2 i⟩
  exact (Cert.ReferenceIdeal.RefValue.ref_value _ _ _ _ _ _ _ _ _ _ _ _ r o).trans (Cert.KernelIdeal.Fr.result_at m ρ c r o).symm

end Cert.Proof.Claims

end
-- ==== Proof.lean ====
/-
  The certificate's five claims for the graph message-passing kernel against its jnp reference.

  The kernel program is two pallas_calls after two host slices: a message network applied row by row to the node
  features (eight blocks of 2048 rows), and an aggregation over the dense adjacency matrix on an 8 × 8 grid that
  accumulates, per row block, the eight block products (adjacency block) · (messages block) in a buffer kept between
  grid points, then applies the node-update network to the finished sums and stores the block of results. The
  reference does the same with whole-array products and reads the pair (features, aggregated messages) through one
  concatenated 68-column row.

  Frames: each pallas_call's body is run symbolically once per control case, the points' results are threaded through the
  grid, and the program's items are composed in order, every buffer named between items; the reference's frame is its
  run. The idealization rewrote nothing, so `preserves` asks nothing. Over the extended reals the two results agree
  entry by entry: changes of float format are the identity, a sum over 16384 positions is the sum of its eight block
  sums, and a sum over 4 + 64 positions is the sum of its two stretches — associativity and commutativity of the sum
  only, so no entry needs to be finite and the precondition is not opened.
-/
import proofs.«172592_j32658931319165_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
